-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v15 : IVec S800000 32) (main_v16 : IVec S800000 32) : IVec S_ 1 :=
  let main_v17 : IVec S800000 1 := cmpi .sge main_v15 main_v16
  let main_v18 : IVec S1x800000 32 := (extractStridedSlice S1x800000 ![1, 0] · slices_S2x800000_S1x800000_1_0) main_arg1
  let main_v19 : IVec S800000 32 := shapeCast S800000 main_v18 shapeCasts_S1x800000_S800000
  let main_c_5 : IVec S_ 32 := constantI S_ 32 50000#32
  let main_v20 : IVec S800000 32 := broadcastInDim S800000 ![] bcast_S_S800000 main_c_5
  let main_v21 : IVec S800000 1 := cmpi .slt main_v19 main_v20
  let main_v22 : IVec S800000 1 := andi main_v17 main_v21
  let main_c_6 : IVec S_ 1 := constantI S_ 1 1#1
  let main_v23 : IVec S_ 1 := (fun x v => Host.reduce IntOp.andi x v reducesTo_S800000_S_d0 h_S_) main_v22 main_c_6
  let main_v24 : IVec S_ 1 := andi main_v13 main_v23
  main_v24

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x800000 32 := (extractStridedSlice S1x800000 ![1, 0] · slices_S2x800000_S1x800000_1_0) main_arg1
  let main_v15 : IVec S800000 32 := shapeCast S800000 main_v14 shapeCasts_S1x800000_S800000
  let main_c_4 : IVec S_ 32 := constantI S_ 32 4294917296#32
  let main_v16 : IVec S800000 32 := broadcastInDim S800000 ![] bcast_S_S800000 main_c_4
  fn_part1 (F := F) main_arg1 main_v13 main_v15 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000x12 : Shape := ⟨2, ![50000, 12]⟩
abbrev S10x1x128 : Shape := ⟨3, ![10, 1, 128]⟩
abbrev S5000x128 : Shape := ⟨2, ![5000, 128]⟩
abbrev S5000x12 : Shape := ⟨2, ![5000, 12]⟩
abbrev S1x1x128 : Shape := ⟨3, ![1, 1, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S1 : Shape := ⟨1, ![1]⟩
abbrev S1x1 : Shape := ⟨2, ![1, 1]⟩
abbrev S800000x12 : Shape := ⟨2, ![800000, 12]⟩
abbrev S12 : Shape := ⟨1, ![12]⟩
abbrev S10x1x12 : Shape := ⟨3, ![10, 1, 12]⟩
abbrev S1x1x12 : Shape := ⟨3, ![1, 1, 12]⟩
abbrev S1x12 : Shape := ⟨2, ![1, 12]⟩

abbrev nBuf : Space → Nat
  | .hbm => 53
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S50000x12, .f32⟩
  | .hbm, ⟨5, _⟩ => ⟨S10x1x128, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x12, .f32⟩
  | .hbm, ⟨34, _⟩ => ⟨S800000x12, .i1⟩
  | .hbm, ⟨35, _⟩ => ⟨S_, .f32⟩
  | .hbm, ⟨36, _⟩ => ⟨S800000x12, .f32⟩
  | .hbm, ⟨37, _⟩ => ⟨S800000x12, .f32⟩
  | .hbm, ⟨38, _⟩ => ⟨S_, .f32⟩
  | .hbm, ⟨39, _⟩ => ⟨S50000x12, .f32⟩
  | .hbm, ⟨40, _⟩ => ⟨S800000x1, .i32⟩
  | .hbm, ⟨41, _⟩ => ⟨S50000x12, .f32⟩
  | .hbm, ⟨42, _⟩ => ⟨S12, .f32⟩
  | .hbm, ⟨43, _⟩ => ⟨S10x1x12, .f32⟩
  | .hbm, ⟨44, _⟩ => ⟨S_, .f32⟩
  | .hbm, ⟨45, _⟩ => ⟨S12, .f32⟩
  | .hbm, ⟨46, _⟩ => ⟨S_, .f32⟩
  | .hbm, ⟨47, _⟩ => ⟨S12, .f32⟩
  | .hbm, ⟨48, _⟩ => ⟨S12, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x12, .f32⟩
  | .local _ .vmem, ⟨5, _⟩ => ⟨S5000x12, .f32⟩
  | .local _ .vmem, ⟨6, _⟩ => ⟨S1x1x128, .f32⟩
  | .local _ .vmem, ⟨7, _⟩ => ⟨S1x1x128, .f32⟩
  | .local _ .vmem, ⟨8, _⟩ => ⟨S5000x12, .f32⟩
  | .local _ .vmem, ⟨9, _⟩ => ⟨S5000x12, .f32⟩
  | .local _ .vmem, ⟨10, _⟩ => ⟨S12, .f32⟩
  | .local _ .vmem, ⟨11, _⟩ => ⟨S1x1x12, .f32⟩
  | .local _ .vmem, ⟨12, _⟩ => ⟨S1x1x12, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_cst_3 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_call1_v0 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S5000x128_o0_0_S5000x12 : S5000x128.Slices ![0, 0] S5000x12
  inb_S5000x12_S5000x12_0_0 : ∀ a, (![0, 0] : Fin 2 → Nat) a + S5000x12.size a ≤ S5000x12.size a
  h_S5000x12 : 0 < S5000x12.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  iota_S5000x128_d1_w32 : S5000x128.Iotas .tc 32 [1]
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S128_d0_1 : S10x1x128.ReducesTo [0, 1] S128
  h_S_ : 0 < S_.numel
  bcast_S_S128 : S_.BroadcastsInDim S128 (![] : Fin 0 → Fin S128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x12_0 : S800000.BroadcastsInDim S800000x12 (![0] : Fin 1 → Fin S800000x12.rank)
  bcast_S_S800000x12 : S_.BroadcastsInDim S800000x12 (![] : Fin 0 → Fin S800000x12.rank)
  bcast_S_S50000x12 : S_.BroadcastsInDim S50000x12 (![] : Fin 0 → Fin S50000x12.rank)
  slices_S128_S12_0 : S128.Slices ![0] S12
  shapeCasts_S5000x12_S5000x12 : S5000x12.ShapeCasts S5000x12
  inb_S12_S12_0 : ∀ a, (![0] : Fin 1 → Nat) a + S12.size a ≤ S12.size a
  h_S12 : 0 < S12.numel
  shapeCasts_S12_S12 : S12.ShapeCasts S12
  shapeCasts_S12_S1x12 : S12.ShapeCasts S1x12
  broadcasts_S1x12_S5000x12 : S1x12.Broadcasts S5000x12
  reduces_S5000x12_S12 : S5000x12.Reduces [0] S12
  shapeCasts_S1x12_S1x1x12 : S1x12.ShapeCasts S1x1x12
  inb_S1x1x12_S1x1x12_0_0_0 : ∀ a, (![0, 0, 0] : Fin 3 → Nat) a + S1x1x12.size a ≤ S1x1x12.size a
  h_S1x1x12 : 0 < S1x1x12.numel
  reducesTo_S10x1x12_S12_d0_1 : S10x1x12.ReducesTo [0, 1] S12
  bcast_S_S12 : S_.BroadcastsInDim S12 (![] : Fin 0 → Fin S12.rank)
  pads_S12_S128_01160 : S12.Pads (![0] : Fin 1 → Nat) ![116] ![0] S128
  dot_S5000x128_S128x128_S5000x128_1_0_0_1_n_n_wf : DotDims.WF S5000x128 S128x128 S5000x128 [1] [0] [0] [1] [] []
  gather_S50000x12_S800000x1_S800000x12_1_0_n_n_0_1_112_wf : GatherDims.WF S50000x12 S800000x1 S800000x12 [1] [0] [] [0] [] 1 ![1, 12]
  scatter_S50000x12_S800000x1_S800000x12_1_0_0_1_wf : ScatterDims.WF S50000x12 S800000x1 S800000x12 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x12.size a ≤ S50000x12.size a
  hwx0_3 : ∀ i : grid0.Coords, EltTy.bits .f32 = 32 ∨ (Rect.block (s := S50000x12) S5000x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S10x1x128.size a
  hwx0_4 : ∀ i : grid0.Coords, EltTy.bits .f32 = 32 ∨ (Rect.block (s := S10x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x12.size a ≤ S50000x12.size a
  hwx1_0 : ∀ i : grid1.Coords, EltTy.bits .f32 = 32 ∨ (Rect.block (s := S50000x12) S5000x12.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12.size a ≤ S12.size a
  hwx1_1 : ∀ i : grid1.Coords, EltTy.bits .f32 = 32 ∨ (Rect.block (s := S12) S12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x12.size a ≤ S10x1x12.size a
  hwx1_2 : ∀ i : grid1.Coords, EltTy.bits .f32 = 32 ∨ (Rect.block (s := S10x1x12) S1x1x12.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x12_S800000x1_S800000x12_1_0_n_n_0_1_112 : GatherDims S50000x12 S800000x1 S800000x12 where
  offsetDims := [1]
  collapsedSliceDims := [0]
  operandBatchingDims := []
  startIndicesBatchingDims := []
  startIndexMap := [0]
  indexVectorDim := 1
  sliceSizes := ![1, 12]
  wf := gather_S50000x12_S800000x1_S800000x12_1_0_n_n_0_1_112_wf
def scatter_S50000x12_S800000x1_S800000x12_1_0_0_1 : ScatterDims S50000x12 S800000x1 S800000x12 where
  updateWindowDims := [1]
  insertedWindowDims := [0]
  scatterDimsToOperandDims := [0]
  indexVectorDim := 1
  wf := scatter_S50000x12_S800000x1_S800000x12_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x12.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x12 : Shape := ⟨2, ![50000, 12]⟩
abbrev S50000x116 : Shape := ⟨2, ![50000, 116]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S50000x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x12, .f32⟩
  | .hbm, ⟨23, _⟩ => ⟨S50000x116, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S50000x128_S50000x12_0_0 : S50000x128.Slices ![0, 0] S50000x12
  slices_S50000x128_S50000x116_0_12 : S50000x128.Slices ![0, 12] S50000x116
  concatenates_S50000x12_S50000x116_S50000x128_d1 : Shape.Concatenates [S50000x12, S50000x116] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The function both programs compute, written once over the argument arrays.

  Nodes carry 128 features; `feat` is the linear map `X · W`. An edge `e` has a destination word
  `E[0, e]` and a source word `E[1, e]`; a negative source counts from the end (`wrapIdx`) and the
  row a gather then reads is that index clamped into the array (`clampRow`). `gathered` sums, for a
  node `n`, the features of the sources of the edges whose destination is `n`. The first twelve
  columns of a node's activation use the gathered features, the others the node's own; the bias is
  added, the negative part is cut off, and `pooledAt` is the mean over the 50000 nodes.
-/
import Idealize.ShloMosaic.PureOps.Ideal
import Idealize.ShloMosaic.Lib.ValueIdx

noncomputable section

open scoped BigOperators

namespace Cert.PoolSpec

open Idealize.ShloMosaic Idealize.ShloMosaic.ValueIdx

/-- A signed index under the convention that a negative one counts from the end of the 50000 rows. -/
def wrapIdx (c : BitVec 32) : BitVec 32 :=
  Scalar.select (IntOp.cmpi .slt c 0#32) (IntOp.addi c 50000#32) c

/-- The row a gather reads for the start index `c`: the index read signed and clamped into `[0, 49999]`. -/
def clampRow (c : BitVec 32) : Fin 50000 := ⟨min c.toInt.toNat 49999, by omega⟩

/-- The source row of an edge whose source word is `c`. -/
def srcRow (c : BitVec 32) : Fin 50000 := clampRow (wrapIdx c)

/-- Row `r` of the `blk`-th block of 5000 nodes. -/
def blockRow (blk : Fin 10) (r : Fin 5000) : Fin 50000 := ⟨5000 * blk.val + r.val, by omega⟩

/-- One of the first twelve columns, as a column of the 128. -/
def col12 (j : Fin 12) : Fin 128 := ⟨j.val, by omega⟩

/-- The linear map: feature `j` of node `n` is `∑ₖ X[n, k] · W[k, j]`. -/
def feat (X : (⟨2, ![50000, 128]⟩ : Shape).Idx → EReal) (W : (⟨2, ![128, 128]⟩ : Shape).Idx → EReal)
    (n : Fin 50000) (j : Fin 128) : EReal :=
  ∑ k : Fin 128, X (ix2 n k) * W (ix2 k j)

/-- The features gathered at node `n`: the sum over the edges whose destination word is `n` of the
    source's feature. An edge whose destination is no node contributes to none. -/
def gathered (X : (⟨2, ![50000, 128]⟩ : Shape).Idx → EReal) (W : (⟨2, ![128, 128]⟩ : Shape).Idx → EReal)
    (E : (⟨2, ![2, 800000]⟩ : Shape).Idx → BitVec 32) (n : Fin 50000) (j : Fin 128) : EReal :=
  ∑ e : Fin 800000, if (E (ix2 0 e)).toInt = (n.val : ℤ) then feat X W (srcRow (E (ix2 1 e))) j else 0

/-- A node's activation: gathered features in the first twelve columns, its own in the others, plus
    the bias, the negative part cut off. -/
def act (X : (⟨2, ![50000, 128]⟩ : Shape).Idx → EReal) (W : (⟨2, ![128, 128]⟩ : Shape).Idx → EReal)
    (E : (⟨2, ![2, 800000]⟩ : Shape).Idx → BitVec 32) (b : (⟨1, ![128]⟩ : Shape).Idx → EReal)
    (n : Fin 50000) (j : Fin 128) : EReal :=
  max ((if j.val < 12 then gathered X W E n j else feat X W n j) + b (ix1 j)) 0

/-- The mean activation over the nodes, column `j`: the sum divided by 50000 (the word `0x47435000`). -/
def pooledAt (X : (⟨2, ![50000, 128]⟩ : Shape).Idx → EReal) (W : (⟨2, ![128, 128]⟩ : Shape).Idx → EReal)
    (E : (⟨2, ![2, 800000]⟩ : Shape).Idx → BitVec 32) (b : (⟨1, ![128]⟩ : Shape).Idx → EReal)
    (j : Fin 128) : EReal :=
  Ideal.div (∑ n : Fin 50000, act X W E b n j) (Ideal.ofBits .f32 0x47435000#32)

/-- The whole result array. -/
def pooled (X : (⟨2, ![50000, 128]⟩ : Shape).Idx → EReal) (W : (⟨2, ![128, 128]⟩ : Shape).Idx → EReal)
    (E : (⟨2, ![2, 800000]⟩ : Shape).Idx → BitVec 32) (b : (⟨1, ![128]⟩ : Shape).Idx → EReal) :
    (⟨1, ![128]⟩ : Shape).Idx → EReal :=
  fun i => pooledAt X W E b ⟨(i 0).val, (i 0).isLt⟩

theorem pooled_ix1 (X : (⟨2, ![50000, 128]⟩ : Shape).Idx → EReal) (W : (⟨2, ![128, 128]⟩ : Shape).Idx → EReal)
    (E : (⟨2, ![2, 800000]⟩ : Shape).Idx → BitVec 32) (b : (⟨1, ![128]⟩ : Shape).Idx → EReal) (j : Fin 128) :
    pooled X W E b (ix1 j) = pooledAt X W E b j := rfl

end Cert.PoolSpec

end
-- ==== Proof.LinearBlocks.lean ====
/-
  What the first region leaves in its two output arrays.

  Point `blk` of its grid reads rows `5000·blk … 5000·blk + 4999` of `X`, all of `W` and the bias.
  It writes the first twelve columns of `X · W` for those rows, and one row of 128 partial sums: in
  column `j ≥ 12` the sum over the block's rows of the positive part of `(X · W)[row, j] + bias[j]`,
  in column `j < 12` zero.

  The proof reads the block's arithmetic at one entry (the product as a sum over the contracted axis,
  the slice as a shift of the column, the masked row sum column by column), identifies each block a
  point reads with the rows of the array it is cut from, and then observes that the ten blocks of
  each output tile its array: row `n` of the first lies in block `n / 5000`, row `blk` of the second
  is block `blk`.
-/
import proofs.«412207_j70609262346359_2_alg».proof.Proof.Gen.KernelIdeal.Frame
import proofs.«412207_j70609262346359_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

open scoped BigOperators

namespace Cert.KernelIdeal.LinearBlocks

open Idealize.ShloMosaic Idealize.ShloMosaic.TcCoe Idealize.ShloMosaic.ValueIdx Idealize.SL.Sem
open Cert.KernelIdeal Cert.KernelIdeal.Gen Cert.PoolSpec

/-! ## The block's arithmetic at an entry -/

/-! The four coordinates of the product's operand indices: output entry `(r, j)` at contraction index `k`
    reads the left operand at `(r, k)` and the right at `(k, j)`. -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product at an entry: row `r` of the block of `X` against column `j` of `W`. -/
theorem pay1_apply (x0 : Vec Ideal S5000x128 .f32) (x1 : Vec Ideal S128x128 .f32) (r : Fin 5000) (j : Fin 128) :
    k0_pay1 (F := Ideal) x0 x1 (ix2 r j) = ∑ k : Fin 128, x0 (ix2 r k) * x1 (ix2 k j) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]
  rfl

/-- The first twelve columns of a block of 128, read at an entry. -/
theorem slice12_apply (y : FVec Ideal S5000x128 .f32) (r : Fin 5000) (j : Fin 12) :
    extractStridedSlice S5000x12 ![0, 0] y slices_S5000x128_o0_0_S5000x12 (ix2 r j) = y (ix2 r (col12 j)) :=
  extractStridedSlice_apply ![0, 0] y slices_S5000x128_o0_0_S5000x12 (ix2 r j) (ix2 r (col12 j)) (fun a => match a with
    | ⟨0, _⟩ => by show r.val = 0 + r.val; omega
    | ⟨1, _⟩ => by show j.val = 0 + j.val; omega)

/-- The first output's block at an entry: one of the first twelve columns of the block's product. -/
theorem pay2_apply (x0 : Vec Ideal S5000x128 .f32) (x1 : Vec Ideal S128x128 .f32) (r : Fin 5000) (j : Fin 12) :
    k0_pay2 (F := Ideal) x0 x1 (ix2 r j) = ∑ k : Fin 128, x0 (ix2 r k) * x1 (ix2 k (col12 j)) :=
  (slice12_apply (k0_pay1 (F := Ideal) x0 x1) r j).trans (pay1_apply x0 x1 r (col12 j))

/-- The column test of the mask: the column's word is at least twelve exactly when the column is. -/
theorem col_mask (j : Fin 128) :
    IntOp.cmpi .sge (BitVec.ofNat 32 j.val) 12#32 = if 12 ≤ j.val then 1#1 else 0#1 := by
  have hj : j.val < 128 := j.isLt
  have ha : (BitVec.ofNat 32 j.val).toNat = j.val := by rw [BitVec.toNat_ofNat]; omega
  have hb : (12#32 : BitVec 32).toNat = 12 := by decide
  have h := StableHlo.Predicate.sge_iff_toNat (a := BitVec.ofNat 32 j.val) (b := 12#32) (by rw [ha]; omega) (by rw [hb]; omega)
  rw [ha, hb] at h
  by_cases h12 : 12 ≤ j.val
  · rw [if_pos h12]; exact h.mpr h12
  · rw [if_neg h12]; exact eq_zero_of_ne_one (fun e => h12 (h.mp e))

/-- The bias, laid out as a row and repeated down the block's rows, read at an entry. -/
theorem bias_apply (x2 : Vec Ideal S128 .f32) (r : Fin 5000) (j : Fin 128) :
    broadcastTo S5000x128 (shapeCast S1x128 x2 shapeCasts_S128_S1x128) broadcasts_S1x128_S5000x128 (ix2 r j) = x2 (ix1 j) := by
  refine (broadcastTo_apply _ broadcasts_S1x128_S5000x128 (ix2 r j) (ix2 0 j) (fun a => ?_)).trans ?_
  · match a with
    | ⟨0, _⟩ => rfl
    | ⟨1, _⟩ => rfl
  · exact shapeCast_apply x2 shapeCasts_S128_S1x128 (ix2 0 j) (ix1 j)
      (by rw [Shape.rowMajor_val_two, Shape.rowMajor_val_one]; show j.val = 0 * 128 + j.val; omega)

/-- One term of the second output's row sum: the masked positive part at row `r`, column `j`. -/
theorem pay3_term (x0 : Vec Ideal S5000x128 .f32) (x1 : Vec Ideal S128x128 .f32) (x2 : Vec Ideal S128 .f32) (r : Fin 5000) (j : Fin 128) :
    select (cmpi .sge (iota .tc S5000x128 32 [1] iota_S5000x128_d1_w32) (broadcast S5000x128 12#32))
        (maximumf (addf (k0_pay1 (F := Ideal) x0 x1) (broadcastTo S5000x128 (shapeCast S1x128 x2 shapeCasts_S128_S1x128) broadcasts_S1x128_S5000x128))
          (broadcast S5000x128 (Scalar.ofBits (F := Ideal) .f32 0x00000000#32)))
        (broadcast S5000x128 (Scalar.ofBits (F := Ideal) .f32 0x00000000#32)) (ix2 r j)
      = if 12 ≤ j.val then max ((∑ k : Fin 128, x0 (ix2 r k) * x1 (ix2 k j)) + x2 (ix1 j)) 0 else 0 := by
  show Scalar.select (IntOp.cmpi .sge (iota .tc S5000x128 32 [1] iota_S5000x128_d1_w32 (ix2 r j)) 12#32)
      (max (k0_pay1 (F := Ideal) x0 x1 (ix2 r j) + broadcastTo S5000x128 (shapeCast S1x128 x2 shapeCasts_S128_S1x128) broadcasts_S1x128_S5000x128 (ix2 r j)) (Ideal.ofBits .f32 0x00000000#32))
      (Ideal.ofBits .f32 0x00000000#32) = _
  rw [iota_single_apply, pay1_apply, bias_apply, Ideal.ofBits_zero_f32]
  show Scalar.select (IntOp.cmpi .sge (BitVec.ofNat 32 j.val) 12#32) _ _ = _
  rw [col_mask]
  by_cases h : 12 ≤ j.val
  · rw [if_pos h, if_pos h, select_one]
  · rw [if_neg h, if_neg h, select_zero]

/-- The second output's block at an entry: the sum over the block's rows of the masked positive parts. -/
theorem pay3_apply (x0 : Vec Ideal S5000x128 .f32) (x1 : Vec Ideal S128x128 .f32) (x2 : Vec Ideal S128 .f32) (j : Fin 128) :
    k0_pay3 (F := Ideal) x0 x1 x2 (ix3 0 0 j)
      = ∑ r : Fin 5000, if 12 ≤ j.val then max ((∑ k : Fin 128, x0 (ix2 r k) * x1 (ix2 k j)) + x2 (ix1 j)) 0 else 0 := by
  unfold k0_pay3
  refine (shapeCast_apply _ shapeCasts_S1x128_S1x1x128 (ix3 0 0 j) (ix2 0 j) ?_).trans ?_
  · rw [Shape.rowMajor_val_two, Shape.rowMajor_val_three]; rfl
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single _ _ reduces_S5000x128_S128 _ _ (ix1 j)).trans ?_
  show ∑ r : Fin 5000, _ = _
  refine Finset.sum_congr rfl fun r _ => ?_
  have hl : reduces_S5000x128_S128.lift (ix1 j) r = ix2 r j := funext fun a => by
    match a with
    | ⟨0, _⟩ => rfl
    | ⟨1, _⟩ => rfl
  rw [hl]
  exact pay3_term x0 x1 x2 r j

/-! ## From a block's entry to the arrays' entries -/

/-- An entry of the block's product, over any index of the block. -/
theorem pay2_at (x0 : Vec Ideal S5000x128 .f32) (x1 : Vec Ideal S128x128 .f32) (y : S5000x12.Idx) :
    k0_pay2 (F := Ideal) x0 x1 y
      = ∑ k : Fin 128, x0 (ix2 ⟨(y 0).val, idx2_lt0 y⟩ k) * x1 (ix2 k (col12 ⟨(y 1).val, idx2_lt1 y⟩)) := by
  obtain ⟨p, q, rfl⟩ : ∃ (p : Fin 5000) (q : Fin 12), y = ix2 p q := ⟨y 0, y 1, eq_ix2 y⟩
  exact pay2_apply x0 x1 p q

/-- An entry of the block's row of partial sums, over any index of the block. -/
theorem pay3_at (x0 : Vec Ideal S5000x128 .f32) (x1 : Vec Ideal S128x128 .f32) (x2 : Vec Ideal S128 .f32) (y : S1x1x128.Idx) :
    k0_pay3 (F := Ideal) x0 x1 x2 y
      = ∑ r : Fin 5000, if 12 ≤ (y 2).val
          then max ((∑ k : Fin 128, x0 (ix2 r k) * x1 (ix2 k ⟨(y 2).val, (y 2).isLt⟩)) + x2 (ix1 ⟨(y 2).val, (y 2).isLt⟩)) 0
          else 0 := by
  obtain ⟨a, b, j, rfl⟩ : ∃ (a : Fin 1) (b : Fin 1) (j : Fin 128), y = ix3 a b j := ⟨y 0, y 1, y 2, eq_ix3 y⟩
  obtain rfl : a = 0 := Subsingleton.elim _ _
  obtain rfl : b = 0 := Subsingleton.elim _ _
  exact pay3_apply x0 x1 x2 j

/-- The whole first output array as a function of the arrays read: entry `(n, j)` is feature `j` of node `n`. -/
def smallG (X : S50000x128.Idx → EReal) (W : S128x128.Idx → EReal) : S50000x12.Idx → EReal :=
  fun i => feat X W ⟨(i 0).val, idx2_lt0 i⟩ (col12 ⟨(i 1).val, idx2_lt1 i⟩)

/-- The whole second output array: entry `(blk, 0, j)` is the block's sum of masked positive parts in column `j`. -/
def tailG (X : S50000x128.Idx → EReal) (W : S128x128.Idx → EReal) (b : S128.Idx → EReal) : S10x1x128.Idx → EReal :=
  fun i => ∑ r : Fin 5000, if 12 ≤ (i 2).val
    then max (feat X W (blockRow ⟨(i 0).val, (i 0).isLt⟩ r) ⟨(i 2).val, (i 2).isLt⟩ + b (ix1 ⟨(i 2).val, (i 2).isLt⟩)) 0
    else 0

/-- If a block of `X` holds the rows of block `blk` and the block of `W` is `W`, an entry of the block's first
    output is the entry of `smallG` at the same column, `5000·blk` rows further down. -/
theorem small_entry (xb : Vec Ideal S5000x128 .f32) (wb : Vec Ideal S128x128 .f32)
    (X : S50000x128.Idx → EReal) (W : S128x128.Idx → EReal) (blk : Fin 10)
    (hx : ∀ (r : Fin 5000) (k : Fin 128), xb (ix2 r k) = X (ix2 (blockRow blk r) k))
    (hw : ∀ (k j : Fin 128), wb (ix2 k j) = W (ix2 k j))
    (y : S5000x12.Idx) (i : S50000x12.Idx) (h0 : (i 0).val = 5000 * blk.val + (y 0).val) (h1 : (i 1).val = (y 1).val) :
    k0_pay2 (F := Ideal) xb wb y = smallG X W i := by
  rw [pay2_at]
  unfold smallG feat
  have hr : (⟨(i 0).val, idx2_lt0 i⟩ : Fin 50000) = blockRow blk ⟨(y 0).val, idx2_lt0 y⟩ := Fin.ext h0
  have hc : (⟨(i 1).val, idx2_lt1 i⟩ : Fin 12) = ⟨(y 1).val, idx2_lt1 y⟩ := Fin.ext h1
  rw [hr, hc]
  exact Finset.sum_congr rfl fun k _ => by rw [hx, hw]

/-- Likewise for the second output: the block's row of partial sums is row `blk` of `tailG`. -/
theorem tail_entry (xb : Vec Ideal S5000x128 .f32) (wb : Vec Ideal S128x128 .f32) (bb : Vec Ideal S128 .f32)
    (X : S50000x128.Idx → EReal) (W : S128x128.Idx → EReal) (b : S128.Idx → EReal) (blk : Fin 10)
    (hx : ∀ (r : Fin 5000) (k : Fin 128), xb (ix2 r k) = X (ix2 (blockRow blk r) k))
    (hw : ∀ (k j : Fin 128), wb (ix2 k j) = W (ix2 k j))
    (hb : ∀ j : Fin 128, bb (ix1 j) = b (ix1 j))
    (y : S1x1x128.Idx) (i : S10x1x128.Idx) (h0 : (i 0).val = blk.val) (h2 : (i 2).val = (y 2).val) :
    k0_pay3 (F := Ideal) xb wb bb y = tailG X W b i := by
  rw [pay3_at]
  unfold tailG feat
  have hr : (⟨(i 0).val, (i 0).isLt⟩ : Fin 10) = blk := Fin.ext h0
  have hc : (⟨(i 2).val, (i 2).isLt⟩ : Fin 128) = ⟨(y 2).val, (y 2).isLt⟩ := Fin.ext h2
  rw [hr, hc, h2]
  refine Finset.sum_congr rfl fun r _ => ?_
  rw [hb]
  simp only [hx, hw]

/-! ## The blocks of the region's windows -/

variable (V : (c : Dev nD) → (b : Ref sig .tc) → Buf (Elt Ideal) ((c : Thread nD τ).loc b))

/-- The node array the region reads, -/
abbrev xArr (c : Dev nD) : S50000x128.Idx → EReal := V c main_arg0
/-- the weights, -/
abbrev wArr (c : Dev nD) : S128x128.Idx → EReal := V c main_arg2
/-- the bias, -/
abbrev bArr (c : Dev nD) : S128.Idx → EReal := V c main_arg3
/-- the twelve-column array it leaves, -/
abbrev smallArr (c : Dev nD) : S50000x12.Idx → EReal := (dat0 (F := Ideal) V c).arrAt 3 cfg0.N
/-- and the array of per-block partial sums it leaves. -/
abbrev tailArr (c : Dev nD) : S10x1x128.Idx → EReal := (dat0 (F := Ideal) V c).arrAt 4 cfg0.N

private theorem hz1 : (![0] : Fin 1 → Nat) = fun _ => 0 := funext fun a => by fin_cases a; rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The windows' index maps at the grid's ten points: the node array and both outputs move one block per point along
    their first axis, the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ t.val < 10 :=
  (by decide +kernel : ∀ t : Fin grid0.N, _)

/-- The grid point as a block number. -/
def blkOf (t : Fin cfg0.N) : Fin 10 := ⟨t.val, (idx_facts t).2.2.2.2.2.2.2.2.2.2⟩

/-- The block of the node array at point `t` holds the rows of block `t`. -/
theorem xblk_rows (c : Dev nD) (t : Fin cfg0.N) (r : Fin 5000) (k : Fin 128) :
    (iblk0 (F := Ideal) V c 0 t : Vec Ideal S5000x128 .f32) (ix2 r k) = xArr V c (ix2 (blockRow (blkOf t) r) k) := by
  obtain ⟨e0, e1, -⟩ := idx_facts t
  show xArr V c (((cfg0.win 0).blk t).view.emb (ix2 r k)) = xArr V c (ix2 (blockRow (blkOf t) r) k)
  refine congrArg (xArr V c) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- The block of the weights is the weights, at every point. -/
theorem wblk_all (c : Dev nD) (t : Fin cfg0.N) (k j : Fin 128) :
    (iblk0 (F := Ideal) V c 1 t : Vec Ideal S128x128 .f32) (ix2 k j) = wArr V c (ix2 k j) := by
  obtain ⟨-, -, e0, e1, -⟩ := idx_facts t
  show wArr V c (((cfg0.win 1).blk t).view.emb (ix2 k j)) = wArr V c (ix2 k j)
  refine congrArg (wArr V c) (funext fun a => Fin.ext ?_)
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The block of the bias is the bias, at every point. -/
theorem bblk_all (c : Dev nD) (t : Fin cfg0.N) (j : Fin 128) :
    (iblk0 (F := Ideal) V c 2 t : Vec Ideal S128 .f32) (ix1 j) = bArr V c (ix1 j) := by
  obtain ⟨-, -, -, -, e0, -⟩ := idx_facts t
  show bArr V c (((cfg0.win 2).blk t).view.emb (ix1 j)) = bArr V c (ix1 j)
  refine congrArg (bArr V c) (funext fun a => Fin.ext ?_)
  match a with
  | ⟨0, _⟩ => show win0_2.index t (0 : Fin 1) * 128 + 1 * j.val = j.val; rw [e0]; omega

/-! ## What a point writes back -/

/-- Point `t` writes back block `t` of `smallG`. -/
theorem flushed_small (c : Dev nD) (t : Fin cfg0.N) :
    (dat0 (F := Ideal) V c).flushed 3 t
      = ((cfg0.win 3).blk t).view.read (Elt Ideal) (smallG (xArr V c) (wArr V c)) := by
  show (cfg0.win 3).cut (grid0.coords t) ((dat0 (F := Ideal) V c).after 3 t) = _
  rw [after0_3]
  unfold out0_3
  rw [View.canon_unit_zero hz2]
  simp only [View.ld_unit_zero (S := S5000x128) hz2, View.ld_unit_zero (S := S128x128) hz2]
  obtain ⟨-, -, -, -, -, e0, e1, -⟩ := idx_facts t
  funext y
  exact small_entry (iblk0 V c 0 t) (iblk0 V c 1 t) (xArr V c) (wArr V c) (blkOf t)
    (xblk_rows V c t) (wblk_all V c t) ((cfg0.win 3).xinj (grid0.coords t) y) (((cfg0.win 3).blk t).view.emb y)
    (by show win0_3.index t (0 : Fin 2) * 5000 + 1 * (y 0).val = 5000 * t.val + (y 0).val; rw [e0]; omega)
    (by show win0_3.index t (1 : Fin 2) * 12 + 1 * (y 1).val = (y 1).val; rw [e1]; omega)

/-- Point `t` writes back row `t` of `tailG`. -/
theorem flushed_tail (c : Dev nD) (t : Fin cfg0.N) :
    (dat0 (F := Ideal) V c).flushed 4 t
      = ((cfg0.win 4).blk t).view.read (Elt Ideal) (tailG (xArr V c) (wArr V c) (bArr V c)) := by
  show (cfg0.win 4).cut (grid0.coords t) ((dat0 (F := Ideal) V c).after 4 t) = _
  rw [after0_4]
  unfold out0_4
  rw [View.canon_unit_zero hz3]
  simp only [View.ld_unit_zero (S := S5000x128) hz2, View.ld_unit_zero (S := S128x128) hz2, View.ld_unit_zero (S := S128) hz1]
  obtain ⟨-, -, -, -, -, -, -, e0, e1, e2, -⟩ := idx_facts t
  funext y
  have hy : (y 0).val < 1 := (y 0).isLt
  exact tail_entry (iblk0 V c 0 t) (iblk0 V c 1 t) (iblk0 V c 2 t) (xArr V c) (wArr V c) (bArr V c) (blkOf t)
    (xblk_rows V c t) (wblk_all V c t) (bblk_all V c t) ((cfg0.win 4).xinj (grid0.coords t) y) (((cfg0.win 4).blk t).view.emb y)
    (by show win0_4.index t (0 : Fin 3) * 1 + 1 * (y 0).val = t.val; rw [e0]; omega)
    (by show win0_4.index t (2 : Fin 3) * 128 + 1 * (y 2).val = (y 2).val; rw [e2]; omega)

/-! ## The blocks cover the arrays -/

/-- An index of the first output array is in point `t`'s block iff each coordinate is in the block's range. -/
theorem mem_small (t : Fin cfg0.N) (i : S50000x12.Idx) :
    i ∈ ((cfg0.win 3).blk t).view.set ↔ ∀ a : Fin 2, win0_3.index t a * S5000x12.size a ≤ (i a).val ∧ (i a).val < win0_3.index t a * S5000x12.size a + S5000x12.size a := by
  show i ∈ ((View.whole main_v0_0).slice (win0_3.rect t)).set ↔ _
  rw [View.set_slice_whole, Rect.mem_set_unit]
  exact Iff.rfl

/-- Likewise for the second output array. -/
theorem mem_tail (t : Fin cfg0.N) (i : S10x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_1).slice (win0_4.rect t)).set ↔ _
  rw [View.set_slice_whole, Rect.mem_set_unit]
  exact Iff.rfl

/-- Row `n` of the first output array is in the block of point `n / 5000`. -/
theorem cover_small (i : S50000x12.Idx) :
    ∃ t : Fin cfg0.N, (cfg0.win 3).flush t = true ∧ i ∈ ((cfg0.win 3).blk t).view.set := by
  have h0 : (i 0).val < 50000 := idx2_lt0 i
  have h1 : (i 1).val < 12 := idx2_lt1 i
  have hN : (i 0).val / 5000 < cfg0.N := by rw [show cfg0.N = 10 from N_0]; omega
  obtain ⟨-, -, -, -, -, e0, e1, -⟩ := idx_facts ⟨(i 0).val / 5000, hN⟩
  have e0' : win0_3.index ⟨(i 0).val / 5000, hN⟩ (0 : Fin 2) = (i 0).val / 5000 := e0
  refine ⟨⟨(i 0).val / 5000, hN⟩, flush0_3 _, ?_⟩
  rw [mem_small]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e0']; omega
  | ⟨1, _⟩ =>
    show win0_3.index ⟨(i 0).val / 5000, hN⟩ (1 : Fin 2) * 12 ≤ (i 1).val ∧ (i 1).val < win0_3.index ⟨(i 0).val / 5000, hN⟩ (1 : Fin 2) * 12 + 12
    rw [e1]; omega

/-- Row `blk` of the second output array is the block of point `blk`. -/
theorem cover_tail (i : S10x1x128.Idx) :
    ∃ t : Fin cfg0.N, (cfg0.win 4).flush t = true ∧ i ∈ ((cfg0.win 4).blk t).view.set := by
  have h0 : (i 0).val < 10 := (i 0).isLt
  have h1 : (i 1).val < 1 := (i 1).isLt
  have h2 : (i 2).val < 128 := (i 2).isLt
  have hN : (i 0).val < cfg0.N := by rw [show cfg0.N = 10 from N_0]; omega
  obtain ⟨-, -, -, -, -, -, -, e0, e1, e2, -⟩ := idx_facts ⟨(i 0).val, hN⟩
  have e0' : win0_4.index ⟨(i 0).val, hN⟩ (0 : Fin 3) = (i 0).val := e0
  refine ⟨⟨(i 0).val, hN⟩, flush0_4 _, ?_⟩
  rw [mem_tail]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [e0']; omega
  | ⟨1, _⟩ =>
    show win0_4.index ⟨(i 0).val, hN⟩ (1 : Fin 3) * 1 ≤ (i 1).val ∧ (i 1).val < win0_4.index ⟨(i 0).val, hN⟩ (1 : Fin 3) * 1 + 1
    rw [e1]; omega
  | ⟨2, _⟩ =>
    show win0_4.index ⟨(i 0).val, hN⟩ (2 : Fin 3) * 128 ≤ (i 2).val ∧ (i 2).val < win0_4.index ⟨(i 0).val, hN⟩ (2 : Fin 3) * 128 + 128
    rw [e2]; omega

/-! ## The arrays after the region -/

/-- The first output array after the region is `smallG` of the arrays read. -/
theorem small_eq (c : Dev nD) : smallArr V c = smallG (xArr V c) (wArr V c) :=
  (dat0 (F := Ideal) V c).arrAt_eq_of_cover 3 (smallG (xArr V c) (wArr V c)) (fun t _ => flushed_small V c t) cover_small

/-- The second output array after the region is `tailG` of the arrays read. -/
theorem tail_eq (c : Dev nD) : tailArr V c = tailG (xArr V c) (wArr V c) (bArr V c) :=
  (dat0 (F := Ideal) V c).arrAt_eq_of_cover 4 (tailG (xArr V c) (wArr V c) (bArr V c)) (fun t _ => flushed_tail V c t) cover_tail

/-- The first output array after the region: entry `(n, j)` is feature `j` of node `n`. -/
theorem small_apply (c : Dev nD) (n : Fin 50000) (j : Fin 12) :
    smallArr V c (ix2 n j) = feat (xArr V c) (wArr V c) n (col12 j) :=
  (congrFun (small_eq V c) (ix2 n j)).trans rfl

/-- The second output array after the region: entry `(blk, 0, j)` is the block's partial sum of the
    positive parts in a column `j ≥ 12`, and a sum of zeros in a column `j < 12`. -/
theorem tail_apply (c : Dev nD) (blk : Fin 10) (j : Fin 128) :
    tailArr V c (ix3 blk 0 j)
      = ∑ r : Fin 5000, if 12 ≤ j.val
          then max (feat (xArr V c) (wArr V c) (blockRow blk r) j + bArr V c (ix1 j)) 0
          else 0 :=
  (congrFun (tail_eq V c) (ix3 blk 0 j)).trans rfl

end Cert.KernelIdeal.LinearBlocks

end
-- ==== Proof.PoolBlocks.lean ====
/-
  What the second region leaves in its output array.

  Point `blk` of its grid reads rows `5000·blk … 5000·blk + 4999` of the aggregated array (twelve
  columns) and the first twelve bias entries, and writes one row: in column `j` the sum over the
  block's rows of the positive part of `agg[row, j] + bias[j]`.
-/
import proofs.«412207_j70609262346359_2_alg».proof.Proof.Gen.KernelIdeal.Frame
import proofs.«412207_j70609262346359_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PoolBlocks

open Idealize.ShloMosaic Idealize.ShloMosaic.TcCoe Idealize.ShloMosaic.ValueIdx Idealize.SL.Sem
open Cert.KernelIdeal Cert.KernelIdeal.Gen Cert.PoolSpec

/-! ## The body's result at an index -/

/-- The index a sum over the 5000 rows inserts into a column index is the pair (row, column). -/
theorem pool_lift_row (j : Fin 12) (r : Fin 5000) :
    reduces_S5000x12_S12.lift (ix1 j) r = ix2 r j := by
  funext a
  match a with
  | ⟨0, _⟩ => rfl
  | ⟨1, _⟩ => rfl

/-- The body's result at column `j`: the sum over the block's rows of the positive part of the entry
    plus the bias of that column (the row sum starts from the neutral word, so no leading term). -/
theorem poolPay_apply (x0 : Vec Ideal S5000x12 .f32) (x1 : Vec Ideal S12 .f32) (j : Fin 12) :
    k1_pay1 x0 x1 (ix3 (0 : Fin 1) (0 : Fin 1) j) = ∑ r : Fin 5000, max (x0 (ix2 r j) + x1 (ix1 j)) 0 := by
  unfold k1_pay1
  refine (shapeCast_ab_1ab_apply _ _ (0 : Fin 1) (0 : Fin 1) j).trans ?_
  refine (shapeCast_a_1a_apply _ _ (0 : Fin 1) j).trans ?_
  refine (Ideal.multiReduction_add_single _ _ _ _ _ (ix1 j)).trans ?_
  show ∑ r : Fin 5000, _ = _
  refine Finset.sum_congr rfl fun r _ => ?_
  rw [pool_lift_row, maximumf_apply, addf_apply, broadcast_apply, shapeCast_self, shapeCast_self,
    broadcastTo_1b_ab_apply, shapeCast_a_1a_apply]
  show max (x0 (ix2 r j) + x1 (ix1 j)) (Ideal.ofBits .f32 0x00000000#32) = _
  rw [Ideal.ofBits_zero_f32]

variable (V : (c : Dev nD) → (b : Ref sig .tc) → Buf (Elt Ideal) ((c : Thread nD τ).loc b))

/-- The aggregated array the region reads, -/
abbrev aggArr (c : Dev nD) : S50000x12.Idx → EReal := V c main_v11
/-- the twelve bias entries it reads, -/
abbrev biasArr (c : Dev nD) : S12.Idx → EReal := V c main_v12
/-- and the array it leaves. -/
abbrev outArr (c : Dev nD) : S10x1x12.Idx → EReal := (dat1 (F := Ideal) V c).arrAt 2 cfg1.N

/-! ## The array the region leaves, as one function of the arrays it reads -/

/-- Block `blk`, column `j`: the sum over the block's rows of the positive part of entry plus bias. -/
def poolAt (c : Dev nD) (blk : Fin 10) (j : Fin 12) : EReal :=
  ∑ r : Fin 5000, max (aggArr V c (ix2 (blockRow blk r) j) + biasArr V c (ix1 j)) 0

/-- The whole array: entry `(b, u, j)` is `poolAt b j`. -/
def poolArr (c : Dev nD) : S10x1x12.Idx → EReal :=
  fun i => poolAt V c ⟨(i 0).val, (i 0).isLt⟩ ⟨(i 2).val, (i 2).isLt⟩

/-! ## The index maps over the grid -/

/-- The zero offsets of a whole-buffer access, at ranks one, two and three. -/
theorem poolOff1 : (![0] : Fin 1 → Nat) = fun _ => 0 := funext fun a => by fin_cases a <;> rfl
theorem poolOff2 : (![0, 0] : Fin 2 → Nat) = fun _ => 0 := funext fun a => by fin_cases a <;> rfl
theorem poolOff3 : (![0, 0, 0] : Fin 3 → Nat) = fun _ => 0 := funext fun a => by fin_cases a <;> rfl

/-- Point `t` reads row block `t` of the aggregated array (all its columns) and the whole bias, and writes
    row `t` of the output. -/
theorem pool_idx_facts : ∀ t : Fin cfg1.N, win1_0.index t (0 : Fin 2) = t.val ∧ win1_0.index t (1 : Fin 2) = 0
    ∧ win1_1.index t (0 : Fin 1) = 0
    ∧ win1_2.index t (0 : Fin 3) = t.val ∧ win1_2.index t (1 : Fin 3) = 0 ∧ win1_2.index t (2 : Fin 3) = 0 :=
  (by decide +kernel : ∀ t : Fin grid1.N, _)

/-! ## The input blocks at a point -/

/-- Entry `(r, j)` of the aggregated block at point `t` is the array's entry `(5000·t + r, j)`. -/
theorem aggBlock_apply (c : Dev nD) (t : Fin cfg1.N) (r : Fin 5000) (j : Fin 12) (k : S50000x12.Idx)
    (hk0 : (k 0).val = 5000 * t.val + r.val) (hk1 : (k 1).val = j.val) :
    (iblk1 V c 0 t : Vec Ideal S5000x12 .f32) (ix2 r j) = aggArr V c k := by
  obtain ⟨e0, e1, -⟩ := pool_idx_facts t
  unfold iblk1
  rw [View.read_apply]
  show V c main_v11 _ = V c main_v11 k
  congr 1
  funext a; apply Fin.ext
  match a with
  | ⟨0, _⟩ => show win1_0.index t (0 : Fin 2) * 5000 + 1 * r.val = (k 0).val; rw [e0, hk0]; omega
  | ⟨1, _⟩ => show win1_0.index t (1 : Fin 2) * 12 + 1 * j.val = (k 1).val; rw [e1, hk1]; omega

/-- The bias block at every point is the bias array. -/
theorem biasBlock_apply (c : Dev nD) (t : Fin cfg1.N) (j : Fin 12) :
    (iblk1 V c 1 t : Vec Ideal S12 .f32) (ix1 j) = biasArr V c (ix1 j) := by
  obtain ⟨-, -, e2, -⟩ := pool_idx_facts t
  unfold iblk1
  rw [View.read_apply]
  show V c main_v12 _ = V c main_v12 (ix1 j)
  congr 1
  funext a; apply Fin.ext
  match a with
  | ⟨0, _⟩ => show win1_1.index t (0 : Fin 1) * 12 + 1 * j.val = j.val; rw [e2]; omega

/-- The body's result at any index of its block: only the column matters. -/
theorem poolPay_block (x0 : Vec Ideal S5000x12 .f32) (x1 : Vec Ideal S12 .f32) (y : S1x1x12.Idx) :
    k1_pay1 x0 x1 y
      = ∑ r : Fin 5000, max (x0 (ix2 r ⟨(y 2).val, (y 2).isLt⟩) + x1 (ix1 ⟨(y 2).val, (y 2).isLt⟩)) 0 := by
  obtain ⟨a, b, j, rfl⟩ : ∃ (a : Fin 1) (b : Fin 1) (j : Fin 12), y = ix3 a b j := ⟨y 0, y 1, y 2, eq_ix3 y⟩
  obtain rfl : a = 0 := Subsingleton.elim _ _
  obtain rfl : b = 0 := Subsingleton.elim _ _
  exact poolPay_apply x0 x1 j

/-! ## What a point writes back -/

/-- Point `t` writes back block `t` of `poolArr`. -/
theorem pool_flushed_eq (c : Dev nD) (t : Fin cfg1.N) :
    (dat1 V c).flushed 2 t = ((cfg1.win 2).blk t).view.read (Elt Ideal) (poolArr V c) := by
  show (cfg1.win 2).cut (grid1.coords t) ((dat1 V c).after 2 t) = _
  rw [after1_2]
  unfold out1_2
  rw [View.canon_unit_zero poolOff3]
  simp only [View.ld_unit_zero (S := S5000x12) poolOff2, View.ld_unit_zero (S := S12) poolOff1]
  funext y
  have hN : cfg1.N = 10 := N_1
  have ht : t.val < 10 := by have := t.isLt; omega
  have hy2 : (y 2).val < 12 := (y 2).isLt
  obtain ⟨-, -, -, e3, -, e5⟩ := pool_idx_facts t
  show k1_pay1 (iblk1 V c 0 t) (iblk1 V c 1 t) y = poolArr V c (((cfg1.win 2).blk t).view.emb y)
  refine (poolPay_block (iblk1 V c 0 t) (iblk1 V c 1 t) y).trans ?_
  show _ = poolAt V c ⟨_, _⟩ ⟨_, _⟩
  have hb : (⟨((((cfg1.win 2).blk t).view.emb y) 0).val, ((((cfg1.win 2).blk t).view.emb y) 0).isLt⟩ : Fin 10) = ⟨t.val, ht⟩ :=
    Fin.ext (by
      show win1_2.index t (0 : Fin 3) * 1 + 1 * (y 0).val = t.val
      have hy0 : (y 0).val < 1 := (y 0).isLt
      rw [e3]; omega)
  have hj : (⟨((((cfg1.win 2).blk t).view.emb y) 2).val, ((((cfg1.win 2).blk t).view.emb y) 2).isLt⟩ : Fin 12) = ⟨(y 2).val, hy2⟩ :=
    Fin.ext (by
      show win1_2.index t (2 : Fin 3) * 12 + 1 * (y 2).val = (y 2).val
      rw [e5]; omega)
  rw [hb, hj]
  unfold poolAt
  refine Finset.sum_congr rfl fun r _ => ?_
  rw [aggBlock_apply V c t r ⟨(y 2).val, hy2⟩ (ix2 (blockRow ⟨t.val, ht⟩ r) ⟨(y 2).val, hy2⟩) rfl rfl,
    biasBlock_apply V c t ⟨(y 2).val, hy2⟩]

/-! ## The blocks cover the array -/

/-- An index is in point `t`'s block iff each coordinate is in the block's range on its axis. -/
theorem pool_mem_blk (t : Fin cfg1.N) (i : S10x1x12.Idx) :
    i ∈ ((cfg1.win 2).blk t).view.set ↔ ∀ a : Fin 3, win1_2.index t a * S1x1x12.size a ≤ (i a).val
      ∧ (i a).val < win1_2.index t a * S1x1x12.size a + S1x1x12.size a := by
  show i ∈ ((View.whole main_v13).slice (win1_2.rect t)).set ↔ _
  rw [View.set_slice_whole, Rect.mem_set_unit]
  exact Iff.rfl

/-- Row `b` of the output is point `b`'s block. -/
theorem pool_cover (i : S10x1x12.Idx) :
    ∃ t : Fin cfg1.N, (cfg1.win 2).flush t = true ∧ i ∈ ((cfg1.win 2).blk t).view.set := by
  have hN : cfg1.N = 10 := N_1
  have h0 : (i 0).val < 10 := (i 0).isLt
  have h1 : (i 1).val < 1 := (i 1).isLt
  have h2 : (i 2).val < 12 := (i 2).isLt
  obtain ⟨t, ht⟩ : ∃ t : Fin cfg1.N, t.val = (i 0).val := ⟨⟨(i 0).val, by omega⟩, rfl⟩
  obtain ⟨-, -, -, e3, e4, e5⟩ := pool_idx_facts t
  refine ⟨t, flush1_2 t, ?_⟩
  rw [pool_mem_blk]
  intro a
  match a with
  | ⟨0, _⟩ =>
    show win1_2.index t (0 : Fin 3) * 1 ≤ (i 0).val ∧ (i 0).val < win1_2.index t (0 : Fin 3) * 1 + 1
    rw [e3]; omega
  | ⟨1, _⟩ =>
    show win1_2.index t (1 : Fin 3) * 1 ≤ (i 1).val ∧ (i 1).val < win1_2.index t (1 : Fin 3) * 1 + 1
    rw [e4]; omega
  | ⟨2, _⟩ =>
    show win1_2.index t (2 : Fin 3) * 12 ≤ (i 2).val ∧ (i 2).val < win1_2.index t (2 : Fin 3) * 12 + 12
    rw [e5]; omega

/-- So the region leaves `poolArr` in its output array. -/
theorem outArr_eq (c : Dev nD) : outArr V c = poolArr V c :=
  (dat1 V c).arrAt_eq_of_cover 2 (poolArr V c) (fun t _ => pool_flushed_eq V c t) pool_cover

/-- The output array after the region: entry `(blk, 0, j)` is the block's sum of positive parts. -/
theorem partial_apply (c : Dev nD) (blk : Fin 10) (j : Fin 12) :
    outArr V c (ix3 blk 0 j)
      = ∑ r : Fin 5000, max (aggArr V c (ix2 (blockRow blk r) j) + biasArr V c (ix1 j)) 0 := by
  rw [outArr_eq V c]
  rfl

end Cert.KernelIdeal.PoolBlocks

end
-- ==== Proof.KernelTerms.lean ====
/-
  The kernel's program read through its host operations: each buffer the result depends on, as a
  term of the argument arrays and of the arrays the two regions leave.

  After the first region: the mean of the tail columns `tailMean` (the per-block partial sums added
  up and divided by 50000), the destination words `dstWords` and source words `srcWords` of the
  edges. The bounds-checked take: the wrapped source index `takeIdx`, its in-range mask `takeOk`, and
  the gathered rows `takenRows` (a row whose index fails the test is filled with the not-a-number
  word). The aggregation `aggRows` (the gathered rows scatter-added at the destinations) and the
  first twelve bias entries `bias12`. After the second region: its partial sums, their mean
  `aggMean`, padded with zeros to 128 columns (`aggMeanPadded`), and the result, the sum of the two means.
-/
import proofs.«412207_j70609262346359_2_alg».proof.Proof.Gen.KernelIdeal.Frame
import proofs.«412207_j70609262346359_2_alg».proof.Proof.LinearBlocks
import proofs.«412207_j70609262346359_2_alg».proof.Proof.PoolBlocks

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.PoolSpec

variable (m : (ℓ : Loc nD τ sig) → Buf (Elt Ideal) ℓ) (ρ : Dev nD → PrngReg)

/-! ## The arrays, at their literal types -/

/-- The node array as launched. -/
abbrev nodes (c : Dev nD) : S50000x128.Idx → EReal := m ((c.tc : Thread nD τ).loc main_arg0)
/-- The weights as launched. -/
abbrev weights (c : Dev nD) : S128x128.Idx → EReal := m ((c.tc : Thread nD τ).loc main_arg2)
/-- The edge array as launched. -/
abbrev edges (c : Dev nD) : S2x800000.Idx → BitVec 32 := m ((c.tc : Thread nD τ).loc main_arg1)
/-- The bias as launched. -/
abbrev biasArg (c : Dev nD) : S128.Idx → EReal := m ((c.tc : Thread nD τ).loc main_arg3)
/-- What the first region leaves: the twelve feature columns, -/
abbrev small (c : Dev nD) : S50000x12.Idx → EReal := LinearBlocks.smallArr (V0 m ρ) c
/-- and the per-block partial sums of the other columns. -/
abbrev tail (c : Dev nD) : S10x1x128.Idx → EReal := LinearBlocks.tailArr (V0 m ρ) c

/-- The mean of the tail columns. -/
abbrev tailMean (c : Dev nD) : S128.Idx → EReal :=
  Host.divf (F := Ideal) (Host.reduceAdd (F := Ideal) (tail m ρ c) (constant (F := Ideal) S_ .f32 0x00000000#32) reducesTo_S10x1x128_S128_d0_1 h_S_)
    (broadcastInDim S128 ![] bcast_S_S128 (constant (F := Ideal) S_ .f32 0x47435000#32))
/-- The edges' destination words. -/
abbrev dstWords (c : Dev nD) : S800000.Idx → BitVec 32 :=
  shapeCast S800000 (extractStridedSlice S1x800000 ![0, 0] (edges m c) slices_S2x800000_S1x800000_0_0) shapeCasts_S1x800000_S800000
/-- The edges' source words. -/
abbrev srcWords (c : Dev nD) : S800000.Idx → BitVec 32 :=
  shapeCast S800000 (extractStridedSlice S1x800000 ![1, 0] (edges m c) slices_S2x800000_S1x800000_1_0) shapeCasts_S1x800000_S800000
/-- The source index, a negative one counted from the end. -/
abbrev takeIdx (c : Dev nD) : S800000x1.Idx → BitVec 32 :=
  broadcastInDim S800000x1 ![0] bcast_S800000_S800000x1_0
    (select (cmpi .slt (srcWords m c) (broadcastInDim S800000 ![] bcast_S_S800000 (constantI S_ 32 0#32)))
      (addi (srcWords m c) (broadcastInDim S800000 ![] bcast_S_S800000 (constantI S_ 32 50000#32))) (srcWords m c))
/-- Whether the source index is a row of the array. -/
abbrev takeOk (c : Dev nD) : S800000.Idx → BitVec 1 :=
  Host.reduce IntOp.andi
    (andi (cmpi .sge (takeIdx m c) (broadcastInDim S800000x1 ![] bcast_S_S800000x1 (constantI S_ 32 0#32)))
      (cmpi .sle (takeIdx m c) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_
/-- The gathered rows: the source's twelve features where the index is a row, the fill word elsewhere. -/
abbrev takenRows (c : Dev nD) : S800000x12.Idx → EReal :=
  select (broadcastInDim S800000x12 ![0] bcast_S800000_S800000x12_0 (takeOk m c))
    (Host.gather gather_S50000x12_S800000x1_S800000x12_1_0_n_n_0_1_112 (small m ρ c) (takeIdx m c))
    (broadcastInDim S800000x12 ![] bcast_S_S800000x12 (constant (F := Ideal) S_ .f32 0x7FC00000#32))
/-- The aggregation: the gathered rows added up at their destinations. -/
abbrev aggRows (c : Dev nD) : S50000x12.Idx → EReal :=
  Host.scatterAdd scatter_S50000x12_S800000x1_S800000x12_1_0_0_1
    (broadcastInDim S50000x12 ![] bcast_S_S50000x12 (constant (F := Ideal) S_ .f32 0x00000000#32))
    (broadcastInDim S800000x1 ![0] bcast_S800000_S800000x1_0 (dstWords m c)) (takenRows m ρ c)
/-- The first twelve bias entries. -/
abbrev bias12 (c : Dev nD) : S12.Idx → EReal := extractStridedSlice S12 ![0] (biasArg m c) slices_S128_S12_0

/-! ## After the second region -/

/-- What the second region leaves: the per-block partial sums of the aggregated columns. -/
abbrev partials (c : Dev nD) : S10x1x12.Idx → EReal := PoolBlocks.outArr (V4 m ρ) c
/-- Their mean. -/
abbrev aggMean (c : Dev nD) : S12.Idx → EReal :=
  Host.divf (F := Ideal) (Host.reduceAdd (F := Ideal) (partials m ρ c) (constant (F := Ideal) S_ .f32 0x00000000#32) reducesTo_S10x1x12_S12_d0_1 h_S_)
    (broadcastInDim S12 ![] bcast_S_S12 (constant (F := Ideal) S_ .f32 0x47435000#32))
/-- The mean of the aggregated columns, zeros in the other 116. -/
abbrev aggMeanPadded (c : Dev nD) : S128.Idx → EReal :=
  pad S128 ![0] ![116] ![0] (aggMean m ρ c) (sitofp (F := Ideal) .f32 (constantI S_ 32 0#32)) pads_S12_S128_01160 h_S_
/-- The program's result. -/
abbrev result (c : Dev nD) : S128.Idx → EReal := addf (F := Ideal) (φ := .f32) (aggMeanPadded m ρ c) (tailMean m ρ c)

end Cert.KernelIdeal.Fold

end
-- ==== Proof.KernelFold.lean ====
/-
  The buffers of the kernel's program at the boundaries of its host stretches are the terms of
  `KernelTerms`: each stretch's operations, applied in order to what the stretch before left.
-/
import proofs.«412207_j70609262346359_2_alg».proof.Proof.KernelTerms
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.PoolSpec

variable (m : (ℓ : Loc nD τ sig) → Buf (Elt Ideal) ℓ) (ρ : Dev nD → PrngReg)

/-- A line of host operations run in two parts. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-! ## At the first region's exit -/

theorem W1_small (c : Dev nD) : W1 m ρ c (Proc.devRef .tc main_v0_0) = small m ρ c := W1_arr m ρ c 3
theorem W1_tail (c : Dev nD) : W1 m ρ c (Proc.devRef .tc main_v0_1) = tail m ρ c := W1_arr m ρ c 4
theorem W1_edges (c : Dev nD) : W1 m ρ c (Proc.devRef .tc main_arg1) = edges m c := W1_of_ne m ρ c main_arg1 (by decide)
theorem W1_bias (c : Dev nD) : W1 m ρ c (Proc.devRef .tc main_arg3) = biasArg m c :=
  (W1_arr m ρ c 2).trans (((dat0 (V0 m ρ) c).arrAt_in 2 rfl _).trans (A_eq0 (V0 m ρ) c 2))

/-! ## The first stretch: the tail mean and the edges' words -/

theorem W2_tailMean (c : Dev nD) : W2 m ρ c (Proc.devRef .tc main_v3) = tailMean m ρ c := by
  show StableHlo.after hostOps1 (W1 m ρ c) (Proc.devRef .tc main_v3) = _
  after_results
  rw [W1_tail]
theorem W2_dst (c : Dev nD) : W2 m ρ c (Proc.devRef .tc main_v5) = dstWords m c := by
  show StableHlo.after hostOps1 (W1 m ρ c) (Proc.devRef .tc main_v5) = _
  after_results
  rw [W1_edges]
  rfl
theorem W2_src (c : Dev nD) : W2 m ρ c (Proc.devRef .tc main_v7) = srcWords m c := by
  show StableHlo.after hostOps1 (W1 m ρ c) (Proc.devRef .tc main_v7) = _
  after_results
  rw [W1_edges]
  rfl
theorem W2_small (c : Dev nD) : W2 m ρ c (Proc.devRef .tc main_v0_0) = small m ρ c := by
  show StableHlo.after hostOps1 (W1 m ρ c) (Proc.devRef .tc main_v0_0) = _
  after_results
  exact W1_small m ρ c
theorem W2_bias (c : Dev nD) : W2 m ρ c (Proc.devRef .tc main_arg3) = biasArg m c := by
  show StableHlo.after hostOps1 (W1 m ρ c) (Proc.devRef .tc main_arg3) = _
  after_results
  exact W1_bias m ρ c

/-! ## The bounds-checked take -/

/-- The take's last four operations, over any mask and any gathered rows: the rows where the mask is set,
    the fill word elsewhere. -/
theorem fill_ops (VB : Valuation τ sig (Elt Ideal)) (K : S800000.Idx → BitVec 1) (hk : VB (Proc.devRef .tc main_call0_v12) = K)
    (G : S800000x12.Idx → EReal) (hg : VB (Proc.devRef .tc main_call0_v13) = G) :
    StableHlo.after (hostOps1_1.drop 19) VB (Proc.devRef .tc main_v8)
      = (select (broadcastInDim S800000x12 ![0] bcast_S800000_S800000x12_0 K) G
          (broadcastInDim S800000x12 ![] bcast_S_S800000x12 (constant (F := Ideal) S_ .f32 0x7FC00000#32)) : S800000x12.Idx → EReal) := by
  simp only [List.drop]
  after_results_simp
  rw [hk, hg]
  exact rfl

/-- After the take: the gathered rows, -/
theorem W3_taken (c : Dev nD) : W3 m ρ c (Proc.devRef .tc main_v8) = takenRows m ρ c := by
  show StableHlo.after hostOps1_1 (W2 m ρ c) (Proc.devRef .tc main_v8) = _
  have h7 := W2_src m ρ c
  have h0 := W2_small m ρ c
  generalize W2 m ρ c = V at h7 h0 ⊢
  -- the take's index (the first eight operations)
  rw [← List.take_append_drop 8 (hostOps1_1 : List (HloOp τ sig (Elt Ideal))), after_append]
  have hi : StableHlo.after (hostOps1_1.take 8) V (Proc.devRef .tc main_call0_v5) = takeIdx m c := by
    simp only [List.take]
    after_results_simp
    rw [h7]
    simp only [TRef.ofBuf, TRef.toBuf, cast_eq]
  have hs : StableHlo.after (hostOps1_1.take 8) V (Proc.devRef .tc main_v0_0) = small m ρ c := by
    simp only [List.take]
    after_results_simp
    exact h0
  generalize StableHlo.after (hostOps1_1.take 8) V = VA at hi hs ⊢
  -- its bounds test (the next ten)
  rw [← List.take_append_drop 10 ((hostOps1_1 : List (HloOp τ sig (Elt Ideal))).drop 8), after_append]
  have hk : StableHlo.after ((hostOps1_1.drop 8).take 10) VA (Proc.devRef .tc main_call0_v12) = takeOk m c := by
    simp only [List.take, List.drop]
    after_results_simp
    rw [hi]
    simp only [TRef.ofBuf, TRef.toBuf, cast_eq]
  have hi' : StableHlo.after ((hostOps1_1.drop 8).take 10) VA (Proc.devRef .tc main_call0_v5) = takeIdx m c := by
    simp only [List.take, List.drop]
    after_results_simp
    exact hi
  have hs' : StableHlo.after ((hostOps1_1.drop 8).take 10) VA (Proc.devRef .tc main_v0_0) = small m ρ c := by
    simp only [List.take, List.drop]
    after_results_simp
    exact hs
  generalize StableHlo.after ((hostOps1_1.drop 8).take 10) VA = VB at hk hi' hs' ⊢
  -- the gather
  rw [← List.take_append_drop 1 (((hostOps1_1 : List (HloOp τ sig (Elt Ideal))).drop 8).drop 10), after_append]
  have hg : StableHlo.after (((hostOps1_1.drop 8).drop 10).take 1) VB (Proc.devRef .tc main_call0_v13)
      = (Host.gather gather_S50000x12_S800000x1_S800000x12_1_0_n_n_0_1_112 (small m ρ c) (takeIdx m c) : S800000x12.Idx → EReal) := by
    simp only [List.take, List.drop]
    after_results_simp
    rw [hi', hs']
    simp only [TRef.ofBuf, TRef.toBuf, cast_eq]
  have hk' : StableHlo.after (((hostOps1_1.drop 8).drop 10).take 1) VB (Proc.devRef .tc main_call0_v12) = takeOk m c := by
    simp only [List.take, List.drop]
    after_results_simp
    exact hk
  generalize StableHlo.after (((hostOps1_1.drop 8).drop 10).take 1) VB = VC at hg hk' ⊢
  -- the fill where the test fails (the last four)
  exact fill_ops VC _ hk' _ hg
/-- and what the take does not write. -/
theorem W3_dst (c : Dev nD) : W3 m ρ c (Proc.devRef .tc main_v5) = dstWords m c := by
  show StableHlo.after hostOps1_1 (W2 m ρ c) (Proc.devRef .tc main_v5) = _
  have h := W2_dst m ρ c
  generalize W2 m ρ c = V at h ⊢
  after_results_simp
  exact h
theorem W3_tailMean (c : Dev nD) : W3 m ρ c (Proc.devRef .tc main_v3) = tailMean m ρ c := by
  show StableHlo.after hostOps1_1 (W2 m ρ c) (Proc.devRef .tc main_v3) = _
  have h := W2_tailMean m ρ c
  generalize W2 m ρ c = V at h ⊢
  after_results_simp
  exact h
theorem W3_bias (c : Dev nD) : W3 m ρ c (Proc.devRef .tc main_arg3) = biasArg m c := by
  show StableHlo.after hostOps1_1 (W2 m ρ c) (Proc.devRef .tc main_arg3) = _
  have h := W2_bias m ρ c
  generalize W2 m ρ c = V at h ⊢
  after_results_simp
  exact h

/-! ## Between the regions -/

/-- The aggregation the second region reads, -/
theorem W4_agg (c : Dev nD) : W4 m ρ c (Proc.devRef .tc main_v11) = aggRows m ρ c := by
  show StableHlo.after hostOps1_2 (W3 m ρ c) (Proc.devRef .tc main_v11) = _
  have h5 := W3_dst m ρ c
  have h8 := W3_taken m ρ c
  generalize W3 m ρ c = V at h5 h8 ⊢
  after_results
  rw [h5, h8]
/-- the twelve bias entries it reads, -/
theorem W4_bias12 (c : Dev nD) : W4 m ρ c (Proc.devRef .tc main_v12) = bias12 m c := by
  show StableHlo.after hostOps1_2 (W3 m ρ c) (Proc.devRef .tc main_v12) = _
  have h := W3_bias m ρ c
  generalize W3 m ρ c = V at h ⊢
  after_results
  rw [h]
/-- and the mean of the tail columns, which no later operation writes. -/
theorem W4_tailMean (c : Dev nD) : W4 m ρ c (Proc.devRef .tc main_v3) = tailMean m ρ c := by
  show StableHlo.after hostOps1_2 (W3 m ρ c) (Proc.devRef .tc main_v3) = _
  have h := W3_tailMean m ρ c
  generalize W3 m ρ c = V at h ⊢
  after_results
  exact h

/-! ## The second region and the last host operations -/

theorem W5_partials (c : Dev nD) : W5 m ρ c (Proc.devRef .tc main_v13) = partials m ρ c := W5_arr m ρ c 2
theorem W5_tailMean (c : Dev nD) : W5 m ρ c (Proc.devRef .tc main_v3) = tailMean m ρ c :=
  (W5_of_ne m ρ c main_v3 (by decide)).trans (W4_tailMean m ρ c)

/-- The result buffer at the end of @main. -/
theorem W8_result (c : Dev nD) : W8 m ρ c (Proc.devRef .tc main_v18) = result m ρ c := by
  show StableHlo.after hostOps2_2 (W7 m ρ c) (Proc.devRef .tc main_v18) = _
  after_results_simp
  rw [W5_partials, W5_tailMean]
  simp only [TRef.ofBuf, TRef.toBuf, cast_eq]

end Cert.KernelIdeal.Fold

end
-- ==== Proof.RowOps.lean ====
/-
  A row gather and a row scatter-add, read at an index.

  Both programs gather whole rows of a two-axis array at one start index per edge and scatter-add
  whole rows at one destination per edge; the two differ only in the number of columns (12 and 128).
  The gather of row-start `c` reads row `clampRow c` (the start read signed and clamped into the
  array). The scatter-add at `(n, j)` is the entry there plus the sum, over the edges whose
  destination word reads `n`, of the update's entry `(e, j)`: an update row whose destination is
  not a row of the array is dropped.
-/
import proofs.«412207_j70609262346359_2_alg».proof.KernelIdeal
import proofs.«412207_j70609262346359_2_alg».proof.ReferenceIdeal
import proofs.«412207_j70609262346359_2_alg».proof.Proof.Spec
import Idealize.ShloMosaic.PureOps.Ideal.Laws

noncomputable section

open scoped BigOperators

namespace Cert.RowOps

open Idealize.ShloMosaic Idealize.ShloMosaic.ValueIdx Cert.PoolSpec

/-- The dimension numbers of a whole-row gather out of a `50000 × C` array, one start index per
    edge: the result's axis 1 is the row's offset, the operand's axis 0 is collapsed and is the one
    the start index names. -/
abbrev rowGather (C : Nat)
    (wf : GatherDims.WF ⟨2, ![50000, C]⟩ ⟨2, ![800000, 1]⟩ ⟨2, ![800000, C]⟩ [1] [0] [] [0] [] 1 ![1, C]) :
    GatherDims ⟨2, ![50000, C]⟩ ⟨2, ![800000, 1]⟩ ⟨2, ![800000, C]⟩ where
  offsetDims := [1]
  collapsedSliceDims := [0]
  operandBatchingDims := []
  startIndicesBatchingDims := []
  startIndexMap := [0]
  indexVectorDim := 1
  sliceSizes := ![1, C]
  wf := wf

/-- The whole-row gather at `(e, j)`: on axis 0 the start word of edge `e`, read signed and clamped
    into `[0, 49999]` (the slice is one row high), on axis 1 the offset `j` (no start there). -/
theorem rowGather_apply {α : Type} {C : Nat}
    (wf : GatherDims.WF ⟨2, ![50000, C]⟩ ⟨2, ![800000, 1]⟩ ⟨2, ![800000, C]⟩ [1] [0] [] [0] [] 1 ![1, C])
    (x : (⟨2, ![50000, C]⟩ : Shape).Idx → α) (idx : IVec ⟨2, ![800000, 1]⟩ 32) (e : Fin 800000) (j : Fin C) :
    Host.gather (rowGather C wf) x idx (ix2 e j) = x (ix2 (clampRow (idx (ix2 e 0))) j) := by
  unfold Host.gather
  congr 1
  funext a
  refine Fin.ext ?_
  show (rowGather C wf).start (ix2 e j) idx a + (rowGather C wf).batchCoord (ix2 e j) a
    + (rowGather C wf).offCoord (ix2 e j) a = _
  rw [GatherDims.batchCoord_eq_zero _ _ _ List.not_mem_nil]
  match a with
  | ⟨0, h0⟩ =>
    -- axis 0 is collapsed: no offset; the start is the clamped word
    have hm : (⟨0, h0⟩ : Fin (⟨2, ![50000, C]⟩ : Shape).rank) ∈ (rowGather C wf).startIndexMap := by
      show (0 : Fin 2) ∈ ([0] : List (Fin 2)); decide
    rw [GatherDims.offCoord_eq_zero _ _ _ (fun h => ((GatherDims.mem_sKept _ _).mp h).1 hm)]
    simp only [Nat.add_zero]
    unfold GatherDims.start
    rw [dif_pos hm]
    have hsi : (rowGather C wf).siIdx (ix2 e j)
        ⟨List.idxOf (⟨0, h0⟩ : Fin (⟨2, ![50000, C]⟩ : Shape).rank) (rowGather C wf).startIndexMap,
          List.idxOf_lt_length_iff.2 hm⟩ = ix2 e 0 := by
      funext b; refine Fin.ext ?_
      match b with
      | ⟨0, _⟩ => rfl
      | ⟨1, _⟩ => rfl
    rw [hsi]
    rfl
  | ⟨1, h1⟩ =>
    -- axis 1 is not named by the start index map: start 0; the offset is the result's column
    have hm : ¬ ((⟨1, h1⟩ : Fin (⟨2, ![50000, C]⟩ : Shape).rank) ∈ (rowGather C wf).startIndexMap) := by
      show ¬ ((1 : Fin 2) ∈ ([0] : List (Fin 2))); decide
    have hk : (⟨1, h1⟩ : Fin (⟨2, ![50000, C]⟩ : Shape).rank) ∈ (rowGather C wf).sKept := by
      show (1 : Fin 2) ∈ ([1] : List (Fin 2)); decide
    unfold GatherDims.start GatherDims.offCoord
    rw [dif_neg hm, dif_pos hk]
    show 0 + 0 + j.val = j.val
    omega

/-- The dimension numbers of a whole-row scatter into a `50000 × C` array, one destination per
    edge: the update's axis 1 is the row's window, the operand's axis 0 is inserted and is the one
    the scatter index names. -/
abbrev rowScatter (C : Nat)
    (wf : ScatterDims.WF ⟨2, ![50000, C]⟩ ⟨2, ![800000, 1]⟩ ⟨2, ![800000, C]⟩ [1] [0] [0] 1) :
    ScatterDims ⟨2, ![50000, C]⟩ ⟨2, ![800000, 1]⟩ ⟨2, ![800000, C]⟩ where
  updateWindowDims := [1]
  insertedWindowDims := [0]
  scatterDimsToOperandDims := [0]
  indexVectorDim := 1
  wf := wf

section RowScatter
variable {C : Nat} (wf : ScatterDims.WF ⟨2, ![50000, C]⟩ ⟨2, ![800000, 1]⟩ ⟨2, ![800000, C]⟩ [1] [0] [0] 1)
  (idx : IVec ⟨2, ![800000, 1]⟩ 32) (e : Fin 800000) (k : Fin C)

/-- On axis 0 the window starts at the destination word of edge `e`, read signed, unclamped. -/
theorem rowScatter_start0 (h0 : 0 < 2) :
    (rowScatter C wf).start (ix2 e k) idx ⟨0, h0⟩ = (idx (ix2 e 0)).toInt := by
  have hm : (⟨0, h0⟩ : Fin (⟨2, ![50000, C]⟩ : Shape).rank) ∈ (rowScatter C wf).scatterDimsToOperandDims := by
    show (0 : Fin 2) ∈ ([0] : List (Fin 2)); decide
  unfold ScatterDims.start
  rw [dif_pos hm]
  have hsi : (rowScatter C wf).siIdx (ix2 e k)
      ⟨List.idxOf (⟨0, h0⟩ : Fin (⟨2, ![50000, C]⟩ : Shape).rank) (rowScatter C wf).scatterDimsToOperandDims,
        List.idxOf_lt_length_iff.2 hm⟩ = ix2 e 0 := by
    funext b; refine Fin.ext ?_
    match b with
    | ⟨0, _⟩ => rfl
    | ⟨1, _⟩ => rfl
  rw [hsi]

/-- Axis 1 is not named by the scatter index: the window starts at 0 there. -/
theorem rowScatter_start1 (h1 : 1 < 2) : (rowScatter C wf).start (ix2 e k) idx ⟨1, h1⟩ = 0 := by
  have hm : ¬ ((⟨1, h1⟩ : Fin (⟨2, ![50000, C]⟩ : Shape).rank) ∈ (rowScatter C wf).scatterDimsToOperandDims) := by
    show ¬ ((1 : Fin 2) ∈ ([0] : List (Fin 2))); decide
  unfold ScatterDims.start
  rw [dif_neg hm]

/-- Axis 0 is an inserted axis: the window coordinate is 0. -/
theorem rowScatter_window0 (h0 : 0 < 2) : (rowScatter C wf).window (ix2 e k) ⟨0, h0⟩ = 0 := by
  have hm : ¬ ((⟨0, h0⟩ : Fin (⟨2, ![50000, C]⟩ : Shape).rank) ∈ (rowScatter C wf).sKept) := by
    show ¬ ((0 : Fin 2) ∈ ([1] : List (Fin 2))); decide
  unfold ScatterDims.window
  rw [dif_neg hm]

/-- On axis 1 the window coordinate is the update's column. -/
theorem rowScatter_window1 (h1 : 1 < 2) : (rowScatter C wf).window (ix2 e k) ⟨1, h1⟩ = k.val := by
  have hm : (⟨1, h1⟩ : Fin (⟨2, ![50000, C]⟩ : Shape).rank) ∈ (rowScatter C wf).sKept := by
    show (1 : Fin 2) ∈ ([1] : List (Fin 2)); decide
  unfold ScatterDims.window
  rw [dif_pos hm]
  rfl

/-- The update `(e, k)` lands at `(n, j)` exactly when the destination word of `e` reads `n` and the
    columns agree; a destination outside `[0, 50000)` lands nowhere. -/
theorem rowScatter_resultIdx_iff (n : Fin 50000) (j : Fin C) :
    (rowScatter C wf).resultIdx? (ix2 e k) idx = some (ix2 n j)
      ↔ (idx (ix2 e 0)).toInt = (n.val : ℤ) ∧ k = j := by
  have h0 := rowScatter_start0 wf idx e k Nat.zero_lt_two
  have h1 := rowScatter_start1 wf idx e k Nat.one_lt_two
  have w0 := rowScatter_window0 wf e k Nat.zero_lt_two
  have w1 := rowScatter_window1 wf e k Nat.one_lt_two
  have hn := n.isLt
  have hk := k.isLt
  unfold ScatterDims.resultIdx?
  constructor
  · intro h
    split at h
    · rename_i hall
      have hf := Option.some.inj h
      have a0 := (hall ⟨0, Nat.zero_lt_two⟩).1
      have e0 : ((rowScatter C wf).start (ix2 e k) idx ⟨0, Nat.zero_lt_two⟩
          + ((rowScatter C wf).window (ix2 e k) ⟨0, Nat.zero_lt_two⟩ : ℤ)).toNat = n.val :=
        congrArg (fun i : (⟨2, ![50000, C]⟩ : Shape).Idx => (i ⟨0, Nat.zero_lt_two⟩).val) hf
      have e1 : ((rowScatter C wf).start (ix2 e k) idx ⟨1, Nat.one_lt_two⟩
          + ((rowScatter C wf).window (ix2 e k) ⟨1, Nat.one_lt_two⟩ : ℤ)).toNat = j.val :=
        congrArg (fun i : (⟨2, ![50000, C]⟩ : Shape).Idx => (i ⟨1, Nat.one_lt_two⟩).val) hf
      rw [h0, w0] at e0 a0
      rw [h1, w1] at e1
      exact ⟨by omega, Fin.ext (by omega)⟩
    · exact absurd h (by simp)
  · rintro ⟨hn', rfl⟩
    have hall : ∀ a, 0 ≤ (rowScatter C wf).start (ix2 e k) idx a + (rowScatter C wf).window (ix2 e k) a ∧
        (rowScatter C wf).start (ix2 e k) idx a + (rowScatter C wf).window (ix2 e k) a
          < (⟨2, ![50000, C]⟩ : Shape).size a := by
      intro a
      match a with
      | ⟨0, _⟩ =>
        rw [h0, w0, hn']
        refine ⟨by omega, ?_⟩
        show (n.val : ℤ) + ((0 : ℕ) : ℤ) < ((50000 : ℕ) : ℤ)
        omega
      | ⟨1, _⟩ =>
        rw [h1, w1]
        refine ⟨by omega, ?_⟩
        show (0 : ℤ) + (k.val : ℤ) < ((C : ℕ) : ℤ)
        omega
    rw [dif_pos hall]
    congr 1
    funext a
    refine Fin.ext ?_
    match a with
    | ⟨0, ha⟩ =>
      show ((rowScatter C wf).start (ix2 e k) idx ⟨0, ha⟩
        + ((rowScatter C wf).window (ix2 e k) ⟨0, ha⟩ : ℤ)).toNat = n.val
      rw [h0, w0, hn']; omega
    | ⟨1, ha⟩ =>
      show ((rowScatter C wf).start (ix2 e k) idx ⟨1, ha⟩
        + ((rowScatter C wf).window (ix2 e k) ⟨1, ha⟩ : ℤ)).toNat = k.val
      rw [h1, w1]; omega

end RowScatter

/-- The whole-row scatter-add at `(n, j)`: the entry plus the updates `(e, j)` of the edges whose
    destination word reads `n`. The sum over the update's index set splits into the double sum over
    `(e, k)`; for each edge the inner sum keeps only the column `k = j`. -/
theorem rowScatter_apply {C : Nat}
    (wf : ScatterDims.WF ⟨2, ![50000, C]⟩ ⟨2, ![800000, 1]⟩ ⟨2, ![800000, C]⟩ [1] [0] [0] 1)
    (x : FVec Ideal ⟨2, ![50000, C]⟩ .f32) (idx : IVec ⟨2, ![800000, 1]⟩ 32)
    (upd : FVec Ideal ⟨2, ![800000, C]⟩ .f32) (n : Fin 50000) (j : Fin C) :
    Host.scatterAdd (F := Ideal) (rowScatter C wf) x idx upd (ix2 n j)
      = x (ix2 n j) + ∑ e : Fin 800000, if (idx (ix2 e 0)).toInt = (n.val : ℤ) then upd (ix2 e j) else 0 := by
  unfold Host.scatterAdd
  rw [Ideal.hostScatterAdd_def]
  unfold Ideal.hostScatterAdd
  refine congrArg (fun t => x (ix2 n j) + t) ?_
  rw [Finset.sum_filter, sum_idx2]
  refine Finset.sum_congr rfl fun e _ => ?_
  by_cases hn : (idx (ix2 e 0)).toInt = (n.val : ℤ)
  · rw [if_pos hn]
    refine (Finset.sum_congr rfl fun k _ => ?_).trans
      ((Finset.sum_ite_eq' Finset.univ j (fun k => upd (ix2 e k))).trans (if_pos (Finset.mem_univ j)))
    by_cases hk : k = j
    · rw [if_pos ((rowScatter_resultIdx_iff wf idx e k n j).2 ⟨hn, hk⟩), if_pos hk]
    · rw [if_neg (fun h => hk ((rowScatter_resultIdx_iff wf idx e k n j).1 h).2), if_neg hk]
  · rw [if_neg hn]
    refine Finset.sum_eq_zero fun k _ => ?_
    rw [if_neg (fun h => hn ((rowScatter_resultIdx_iff wf idx e k n j).1 h).1)]

/-- The 12-column gather at `(e, j)` reads row `clampRow` of the start word, column `j`. -/
theorem gather12_apply [Cert.KernelIdeal.Facts₀] {α : Type} (x : Cert.KernelIdeal.S50000x12.Idx → α)
    (idx : IVec Cert.KernelIdeal.S800000x1 32) (e : Fin 800000) (j : Fin 12) :
    Host.gather Cert.KernelIdeal.gather_S50000x12_S800000x1_S800000x12_1_0_n_n_0_1_112 x idx (ix2 e j)
      = x (ix2 (clampRow (idx (ix2 e 0))) j) :=
  rowGather_apply Cert.KernelIdeal.Facts₀.gather_S50000x12_S800000x1_S800000x12_1_0_n_n_0_1_112_wf x idx e j

/-- The 128-column gather at `(e, j)` reads row `clampRow` of the start word, column `j`. -/
theorem gather128_apply [Cert.ReferenceIdeal.Facts₀] {α : Type} (x : Cert.ReferenceIdeal.S50000x128.Idx → α)
    (idx : IVec Cert.ReferenceIdeal.S800000x1 32) (e : Fin 800000) (j : Fin 128) :
    Host.gather Cert.ReferenceIdeal.gather_S50000x128_S800000x1_S800000x128_1_0_n_n_0_1_1128 x idx (ix2 e j)
      = x (ix2 (clampRow (idx (ix2 e 0))) j) :=
  rowGather_apply Cert.ReferenceIdeal.Facts₀.gather_S50000x128_S800000x1_S800000x128_1_0_n_n_0_1_1128_wf x idx e j

/-- The 12-column scatter-add at `(n, j)`: the entry plus the updates of the edges whose destination is `n`. -/
theorem scatter12_apply [Cert.KernelIdeal.Facts₀] (x : FVec Ideal Cert.KernelIdeal.S50000x12 .f32)
    (idx : IVec Cert.KernelIdeal.S800000x1 32) (upd : FVec Ideal Cert.KernelIdeal.S800000x12 .f32)
    (n : Fin 50000) (j : Fin 12) :
    Host.scatterAdd (F := Ideal) Cert.KernelIdeal.scatter_S50000x12_S800000x1_S800000x12_1_0_0_1 x idx upd (ix2 n j)
      = x (ix2 n j) + ∑ e : Fin 800000, if (idx (ix2 e 0)).toInt = (n.val : ℤ) then upd (ix2 e j) else 0 :=
  rowScatter_apply Cert.KernelIdeal.Facts₀.scatter_S50000x12_S800000x1_S800000x12_1_0_0_1_wf x idx upd n j

/-- The 128-column scatter-add at `(n, j)`: the entry plus the updates of the edges whose destination is `n`. -/
theorem scatter128_apply [Cert.ReferenceIdeal.Facts₀] (x : FVec Ideal Cert.ReferenceIdeal.S50000x128 .f32)
    (idx : IVec Cert.ReferenceIdeal.S800000x1 32) (upd : FVec Ideal Cert.ReferenceIdeal.S800000x128 .f32)
    (n : Fin 50000) (j : Fin 128) :
    Host.scatterAdd (F := Ideal) Cert.ReferenceIdeal.scatter_S50000x128_S800000x1_S800000x128_1_0_0_1 x idx upd (ix2 n j)
      = x (ix2 n j) + ∑ e : Fin 800000, if (idx (ix2 e 0)).toInt = (n.val : ℤ) then upd (ix2 e j) else 0 :=
  rowScatter_apply Cert.ReferenceIdeal.Facts₀.scatter_S50000x128_S800000x1_S800000x128_1_0_0_1_wf x idx upd n j

end Cert.RowOps

end
-- ==== Proof.IndexRange.lean ====
/-
  The precondition's last conjunct, read as a range of the source words, and what the range gives.

  The precondition says of every edge's source word `c` (row 1 of the edge array) that
  `-50000 ≤ c < 50000` as a signed number. Such a word, once a negative one is counted from the end
  (`wrapIdx`), lies in `[0, 49999]`: both range tests of a bounds-checked gather pass on it.
-/
import proofs.«412207_j70609262346359_2_alg».proof.Pre_finite_inputs
import proofs.«412207_j70609262346359_2_alg».proof.Proof.Spec
import Idealize.ShloMosaic.Lib.ReduceAll
import Idealize.ShloMosaic.Lib.StableHlo.Predicate
import Idealize.ShloMosaic.Lib.Pipeline.Value

noncomputable section

namespace Cert.IndexRange

open Idealize.ShloMosaic Idealize.ShloMosaic.ValueIdx Cert.PoolSpec

/-- The source word of edge `e`, read through the slice of row 1 and the reshape to a vector:
    position `e` of the vector is position `(0, e)` of the one-row slice, which is `(1, e)` of the array. -/
theorem srcWord_apply [Cert.Pre_finite_inputs.Facts] (x1 : IVec Cert.Pre_finite_inputs.S2x800000 32) (e : Fin 800000) :
    shapeCast Cert.Pre_finite_inputs.S800000
        (extractStridedSlice Cert.Pre_finite_inputs.S1x800000 ![1, 0] x1
          Cert.Pre_finite_inputs.Facts.slices_S2x800000_S1x800000_1_0)
        Cert.Pre_finite_inputs.Facts.shapeCasts_S1x800000_S800000 (ix1 e) = x1 (ix2 1 e) := by
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![1, 0] x1 _ (ix2 (0 : Fin 1) e) (ix2 1 e) (fun a => match a with
      | ⟨0, _⟩ => rfl
      | ⟨1, _⟩ => by show e.val = 0 + e.val; omega)

/-- Under the precondition every source word is in `[-50000, 50000)`. -/
theorem col_in_range [Cert.Pre_finite_inputs.Facts]
    (x0 : FVec Ideal Cert.Pre_finite_inputs.S50000x128 .f32) (x1 : IVec Cert.Pre_finite_inputs.S2x800000 32)
    (x2 : FVec Ideal Cert.Pre_finite_inputs.S128x128 .f32) (x3 : FVec Ideal Cert.Pre_finite_inputs.S128 .f32)
    (h : Cert.Pre_finite_inputs.fn (F := Ideal) x0 x1 x2 x3 = fun _ => 1#1) (e : Fin 800000) :
    -50000 ≤ (x1 (ix2 1 e)).toInt ∧ (x1 (ix2 1 e)).toInt < 50000 := by
  -- the rank-0 shape has one index
  haveI : Subsingleton Cert.Pre_finite_inputs.S_.Idx := ⟨fun a b => funext fun d => d.elim0⟩
  -- the scalar result is a conjunction whose last conjunct is the all-reduction over the edges
  have h0 := congrFun h ix0
  dsimp only [Cert.Pre_finite_inputs.fn, Cert.Pre_finite_inputs.fn_part1] at h0
  obtain ⟨-, h1⟩ := IntOp.andi_eq_one.1 h0
  -- an all-reduction that is 1 is 1 at edge `e`: both compares hold there
  have h2 := Host.reduce_andi_all _ _ _ _ ix0 h1 (ix1 e)
  obtain ⟨h3, h4⟩ := IntOp.andi_eq_one.1 h2
  have h3' : IntOp.cmpi .sge (x1 (ix2 1 e)) 4294917296#32 = 1#1 := by
    rw [← srcWord_apply x1 e]; exact h3
  have h4' : IntOp.cmpi .slt (x1 (ix2 1 e)) 50000#32 = 1#1 := by
    rw [← srcWord_apply x1 e]; exact h4
  -- the two literals as signed numbers
  have lo : (4294917296#32 : BitVec 32).toInt = -50000 := by decide
  have hi : (50000#32 : BitVec 32).toInt = 50000 := by decide
  constructor
  · have : BitVec.ofBool ((4294917296#32 : BitVec 32).sle (x1 (ix2 1 e))) = 1#1 := h3'
    rw [StableHlo.Predicate.ofBool_eq_one_iff, BitVec.sle, decide_eq_true_eq, lo] at this
    exact this
  · have : BitVec.ofBool ((x1 (ix2 1 e)).slt (50000#32 : BitVec 32)) = 1#1 := h4'
    rw [StableHlo.Predicate.ofBool_eq_one_iff, BitVec.slt, decide_eq_true_eq, hi] at this
    exact this

/-- Adding 50000 to a negative word not below -50000 does not wrap: the sum lies in `[0, 50000)`. -/
theorem toInt_add_small (c : BitVec 32) (h : -50000 ≤ c.toInt ∧ c.toInt < 0) :
    (c + 50000#32).toInt = c.toInt + 50000 := by
  have h5 : (50000#32 : BitVec 32).toInt = 50000 := by decide
  rw [BitVec.toInt_add, h5]
  exact Int.bmod_eq_of_le_mul_two (by omega) (by omega)

/-- The wrapped index by cases on the sign of the word. -/
theorem wrap_cases (c : BitVec 32) :
    wrapIdx c = if c.toInt < 0 then c + 50000#32 else c := by
  show (if BitVec.ofBool (c.slt 0#32) = 1 then c + 50000#32 else c) = _
  have h0 : (0#32 : BitVec 32).toInt = 0 := by decide
  by_cases hc : c.toInt < 0
  · rw [if_pos hc, if_pos]
    simp only [BitVec.slt, h0, hc, decide_true]; rfl
  · rw [if_neg hc, if_neg]
    simp only [BitVec.slt, h0, hc, decide_false]; decide

/-- A source word in `[-50000, 50000)`, wrapped, is not negative … -/
theorem wrap_nonneg (c : BitVec 32) (h : -50000 ≤ c.toInt ∧ c.toInt < 50000) :
    IntOp.cmpi .sge (wrapIdx c) 0#32 = 1#1 := by
  show BitVec.ofBool ((0#32 : BitVec 32).sle (wrapIdx c)) = 1#1
  have h0 : (0#32 : BitVec 32).toInt = 0 := by decide
  rw [StableHlo.Predicate.ofBool_eq_one_iff, BitVec.sle, decide_eq_true_eq, h0, wrap_cases]
  split
  · rename_i hc; rw [toInt_add_small c ⟨h.1, hc⟩]; omega
  · omega

/-- … and is at most 49999. -/
theorem wrap_le_last (c : BitVec 32) (h : -50000 ≤ c.toInt ∧ c.toInt < 50000) :
    IntOp.cmpi .sle (wrapIdx c) 49999#32 = 1#1 := by
  show BitVec.ofBool ((wrapIdx c).sle (49999#32 : BitVec 32)) = 1#1
  have h0 : (49999#32 : BitVec 32).toInt = 49999 := by decide
  rw [StableHlo.Predicate.ofBool_eq_one_iff, BitVec.sle, decide_eq_true_eq, h0, wrap_cases]
  split
  · rename_i hc; rw [toInt_add_small c ⟨h.1, hc⟩]; omega
  · omega

open scoped BigOperators

/-- Blocks of 5000 rows tile the 50000 rows: a (block, row-in-block) pair is a row, and back by division. -/
def blockEquiv : Fin 10 × Fin 5000 ≃ Fin 50000 where
  toFun p := blockRow p.1 p.2
  invFun n := (⟨n.val / 5000, by have := n.isLt; omega⟩, ⟨n.val % 5000, by omega⟩)
  left_inv p := by
    obtain ⟨⟨b, hb⟩, ⟨r, hr⟩⟩ := p
    refine Prod.ext (Fin.ext ?_) (Fin.ext ?_)
    · show (5000 * b + r) / 5000 = b
      omega
    · show (5000 * b + r) % 5000 = r
      omega
  right_inv n := by
    apply Fin.ext
    show 5000 * (n.val / 5000) + n.val % 5000 = n.val
    omega

/-- A sum over the rows, taken block by block. -/
theorem sum_blocks (f : Fin 50000 → EReal) :
    ∑ blk : Fin 10, ∑ r : Fin 5000, f (blockRow blk r) = ∑ n : Fin 50000, f n := by
  rw [← Fintype.sum_prod_type' (f := fun blk r => f (blockRow blk r))]
  exact Equiv.sum_comp blockEquiv f

/-- The word `0x47435000` denotes the real `50000`, the number of nodes. -/
theorem ofBits_nodes : Ideal.ofBits .f32 0x47435000#32 = ((50000 : ℝ) : EReal) := by
  simp [Ideal.ofBits, Ideal.ieee, -EReal.coe_mul]; norm_num

/-- Zero divided by the number of nodes is zero. -/
theorem div_zero_nodes : Ideal.div 0 (Ideal.ofBits .f32 0x47435000#32) = 0 := by
  rw [ofBits_nodes, Ideal.div_coe (by norm_num), zero_mul]

end Cert.IndexRange

end
-- ==== Proof.KernelStages.lean ====
/-
  The bounds-checked take and the aggregation of the kernel's program, read at an index.

  The edges' words are rows 0 and 1 of the edge array. The take's index is the source word with a
  negative one counted from the end; under the range of the source words its bounds test passes, so
  a gathered row is the source row's twelve features, never the fill word; the aggregation at
  `(n, j)` is the sum of those over the edges whose destination is `n`.
-/
import proofs.«412207_j70609262346359_2_alg».proof.Proof.KernelTerms
import proofs.«412207_j70609262346359_2_alg».proof.Proof.RowOps
import proofs.«412207_j70609262346359_2_alg».proof.Proof.IndexRange

noncomputable section

open scoped BigOperators

namespace Cert.KernelIdeal.Stages

open Idealize.ShloMosaic Idealize.ShloMosaic.TcCoe Idealize.ShloMosaic.ValueIdx Idealize.SL.Sem
open Cert.KernelIdeal Cert.KernelIdeal.Gen Cert.KernelIdeal.Fold Cert.PoolSpec

/-! ## The operations at an index, over any operand -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- The `and` over the unit axis of an `[800000, 1]` array of bits, at `e`: the only element that
    reduces into `e` is `(e, 0)`, so the result is 1 as soon as that element is. -/
theorem allOne_at (p : S800000x1.Idx → BitVec 1) (e : Fin 800000) (hp : p (ix2 e 0) = 1#1) :
    Host.reduce IntOp.andi p (constantI S_ 1 1#1) reducesTo_S800000x1_S800000_d1 h_S_ (ix1 e) = 1#1 := by
  rw [Host.reduce_eq_foldl]
  refine foldl_andi_ones p _ fun i hi => ?_
  have hd : reducesTo_S800000x1_S800000_d1.drop i = ix1 e := of_decide_eq_true (List.mem_filter.1 hi).2
  have h0 : (i 0).val = e.val :=
    (Shape.ReducesTo.drop_apply_val_of_eq reducesTo_S800000x1_S800000_d1 i 0 0).symm.trans
      (congrArg (fun k : S800000.Idx => (k 0).val) hd)
  have hi' : i = ix2 e 0 := funext fun a => Fin.ext (by
    match a with
    | ⟨0, _⟩ => exact h0
    | ⟨1, _⟩ => have h1 : (i 1).val < 1 := (i 1).isLt; show (i 1).val = 0; omega)
  rw [hi']; exact hp

/-- A scalar broadcast to any shape reads the scalar everywhere. -/
theorem bcast0_at {T : Shape} {α : Type} (h : S_.BroadcastsInDim T ![]) (x : S_.Idx → α) (j : T.Idx) :
    broadcastInDim T ![] h x j = x ix0 :=
  broadcastInDim_apply _ h x j ix0 (fun a => a.elim0)

/-- A vector of words broadcast to one column, with a negative word counted from the end, at `(e, 0)`. -/
theorem wrapWords_at (w : S800000.Idx → BitVec 32) (e : Fin 800000) :
    broadcastInDim S800000x1 ![0] bcast_S800000_S800000x1_0
      (select (cmpi .slt w (broadcastInDim S800000 ![] bcast_S_S800000 (constantI S_ 32 0#32)))
        (addi w (broadcastInDim S800000 ![] bcast_S_S800000 (constantI S_ 32 50000#32))) w) (ix2 e 0)
      = wrapIdx (w (ix1 e)) := by
  refine (broadcastInDim_apply _ _ _ (ix2 e 0) (ix1 e) (fun a => match a with
    | ⟨0, _⟩ => by show e.val = if (800000 : Nat) = 1 then 0 else e.val; rw [if_neg (by decide)])).trans ?_
  show Scalar.select (IntOp.cmpi .slt (w (ix1 e)) (broadcastInDim S800000 ![] bcast_S_S800000 (constantI S_ 32 0#32) (ix1 e)))
      (IntOp.addi (w (ix1 e)) (broadcastInDim S800000 ![] bcast_S_S800000 (constantI S_ 32 50000#32) (ix1 e))) (w (ix1 e)) = _
  rw [bcast0_at, bcast0_at]
  rfl

/-- The bounds test of a column of indices, at `e`: 1 where the index at `(e, 0)` is in `[0, 49999]`. -/
theorem okWords_at (t : S800000x1.Idx → BitVec 32) (e : Fin 800000)
    (h0 : IntOp.cmpi .sge (t (ix2 e 0)) 0#32 = 1#1) (h1 : IntOp.cmpi .sle (t (ix2 e 0)) 49999#32 = 1#1) :
    Host.reduce IntOp.andi
      (andi (cmpi .sge t (broadcastInDim S800000x1 ![] bcast_S_S800000x1 (constantI S_ 32 0#32)))
        (cmpi .sle t (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_ (ix1 e) = 1#1 := by
  refine allOne_at _ e ?_
  show IntOp.andi (IntOp.cmpi .sge (t (ix2 e 0)) (broadcastInDim S800000x1 ![] bcast_S_S800000x1 (constantI S_ 32 0#32) (ix2 e 0)))
      (IntOp.cmpi .sle (t (ix2 e 0)) (broadcastInDim S800000x1 ![0, 1] bcast_S1x1_S800000x1_0_1
        (broadcastInDim S1x1 ![1] bcast_S1_S1x1_1 (constantI S1 32 49999#32)) (ix2 e 0))) = 1#1
  have e1 : broadcastInDim S800000x1 ![0, 1] bcast_S1x1_S800000x1_0_1
        (broadcastInDim S1x1 ![1] bcast_S1_S1x1_1 (constantI S1 32 49999#32)) (ix2 e 0) = 49999#32 :=
    (broadcastInDim_apply _ _ _ (ix2 e 0) (ix2 (0 : Fin 1) (0 : Fin 1)) (fun a => match a with
      | ⟨0, _⟩ => by show 0 = if (1 : Nat) = 1 then 0 else e.val; rw [if_pos rfl]
      | ⟨1, _⟩ => by show 0 = if (1 : Nat) = 1 then 0 else 0; rw [if_pos rfl])).trans
    (broadcastInDim_apply _ _ _ (ix2 (0 : Fin 1) (0 : Fin 1)) (ix1 (0 : Fin 1)) (fun a => match a with
      | ⟨0, _⟩ => by show 0 = if (1 : Nat) = 1 then 0 else 0; rw [if_pos rfl]))
  rw [bcast0_at, e1]
  exact IntOp.andi_eq_one.2 ⟨h0, h1⟩

/-- The masked gather at `(e, j)` where the mask bit of `e` is 1: the row the gather reads, never the fill. -/
theorem maskedRows_at (ok : S800000.Idx → BitVec 1) (x : S50000x12.Idx → EReal) (t : S800000x1.Idx → BitVec 32)
    (fill : S800000x12.Idx → EReal) (e : Fin 800000) (j : Fin 12) (hok : ok (ix1 e) = 1#1) :
    select (broadcastInDim S800000x12 ![0] bcast_S800000_S800000x12_0 ok)
      (Host.gather gather_S50000x12_S800000x1_S800000x12_1_0_n_n_0_1_112 x t) fill (ix2 e j)
      = x (ix2 (clampRow (t (ix2 e 0))) j) := by
  have eb : broadcastInDim S800000x12 ![0] bcast_S800000_S800000x12_0 ok (ix2 e j) = ok (ix1 e) :=
    broadcastInDim_apply _ _ _ (ix2 e j) (ix1 e) (fun a => match a with
      | ⟨0, _⟩ => by show e.val = if (800000 : Nat) = 1 then 0 else e.val; rw [if_neg (by decide)])
  rw [select_apply, eb, hok, select_one, Cert.RowOps.gather12_apply]

variable (m : (ℓ : Loc nD τ sig) → Buf (Elt Ideal) ℓ) (ρ : Dev nD → PrngReg)

/-- The source word of edge `e` is row 1 of the edge array. -/
theorem srcWords_at (c : Dev nD) (e : Fin 800000) : srcWords m c (ix1 e) = edges m c (ix2 1 e) := by
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![1, 0] (edges m c) _ (ix2 (0 : Fin 1) e) (ix2 1 e) (fun a => match a with
      | ⟨0, _⟩ => rfl
      | ⟨1, _⟩ => by show e.val = 0 + e.val; omega)

/-- The destination word of edge `e` is row 0 of the edge array. -/
theorem dstWords_at (c : Dev nD) (e : Fin 800000) : dstWords m c (ix1 e) = edges m c (ix2 0 e) := by
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![0, 0] (edges m c) _ (ix2 (0 : Fin 1) e) (ix2 0 e) (fun a => match a with
      | ⟨0, _⟩ => rfl
      | ⟨1, _⟩ => by show e.val = 0 + e.val; omega)

/-- The take's index for edge `e`: the source word, a negative one counted from the end. -/
theorem takeIdx_at (c : Dev nD) (e : Fin 800000) : takeIdx m c (ix2 e 0) = wrapIdx (edges m c (ix2 1 e)) := by
  refine (wrapWords_at (srcWords m c) e).trans ?_
  rw [srcWords_at]

/-- Where the source word is in `[-50000, 50000)` the take's bounds test passes. -/
theorem takeOk_at (c : Dev nD) (e : Fin 800000)
    (h : -50000 ≤ (edges m c (ix2 1 e)).toInt ∧ (edges m c (ix2 1 e)).toInt < 50000) :
    takeOk m c (ix1 e) = 1#1 := by
  refine okWords_at (takeIdx m c) e ?_ ?_
  · rw [takeIdx_at]; exact Cert.IndexRange.wrap_nonneg _ h
  · rw [takeIdx_at]; exact Cert.IndexRange.wrap_le_last _ h

/-- There the gathered row is the source row of the twelve-column array. -/
theorem takenRows_at (c : Dev nD) (e : Fin 800000) (j : Fin 12)
    (h : -50000 ≤ (edges m c (ix2 1 e)).toInt ∧ (edges m c (ix2 1 e)).toInt < 50000) :
    takenRows m ρ c (ix2 e j) = small m ρ c (ix2 (srcRow (edges m c (ix2 1 e))) j) := by
  refine (maskedRows_at (takeOk m c) (small m ρ c) (takeIdx m c) _ e j (takeOk_at m c e h)).trans ?_
  rw [takeIdx_at]
  rfl

/-- The aggregation at `(n, j)`: the sum over the edges whose destination is `n` of the source row's entry. -/
theorem aggRows_at (c : Dev nD)
    (hcol : ∀ e : Fin 800000, -50000 ≤ (edges m c (ix2 1 e)).toInt ∧ (edges m c (ix2 1 e)).toInt < 50000)
    (n : Fin 50000) (j : Fin 12) :
    aggRows m ρ c (ix2 n j)
      = ∑ e : Fin 800000, if (edges m c (ix2 0 e)).toInt = (n.val : ℤ)
          then small m ρ c (ix2 (srcRow (edges m c (ix2 1 e))) j) else 0 := by
  refine (Cert.RowOps.scatter12_apply _ _ _ n j).trans ?_
  rw [bcast0_at]
  show Ideal.ofBits .f32 0x00000000#32 + _ = _
  rw [Ideal.ofBits_zero_f32, zero_add]
  refine Finset.sum_congr rfl fun e _ => ?_
  have ed : broadcastInDim S800000x1 ![0] bcast_S800000_S800000x1_0 (dstWords m c) (ix2 e 0) = edges m c (ix2 0 e) :=
    (broadcastInDim_apply _ _ _ (ix2 e 0) (ix1 e) (fun a => match a with
      | ⟨0, _⟩ => by show e.val = if (800000 : Nat) = 1 then 0 else e.val; rw [if_neg (by decide)])).trans
    (dstWords_at m c e)
  rw [ed, takenRows_at m ρ c e j (hcol e)]

/-- The twelve bias entries are the first twelve of the bias. -/
theorem bias12_at (c : Dev nD) (j : Fin 12) : bias12 m c (ix1 j) = biasArg m c (ix1 (col12 j)) := by
  exact extractStridedSlice_apply ![0] (biasArg m c) _ (ix1 j) (ix1 (col12 j)) (fun a => match a with
    | ⟨0, _⟩ => by show j.val = 0 + j.val; omega)

end Cert.KernelIdeal.Stages

end
-- ==== Proof.KernelMeans.lean ====
/-
  The two means of the kernel's program, the padding and the final sum, read at an index.

  A mean is the sum over the ten blocks of the per-block partial sums, divided by 50000. The mean of
  the aggregated columns is padded with zeros from twelve to 128 columns, and the result is the
  padded mean plus the mean of the tail columns.
-/
import proofs.«412207_j70609262346359_2_alg».proof.Proof.KernelTerms
import proofs.«412207_j70609262346359_2_alg».proof.Proof.IndexRange
import Idealize.ShloMosaic.Lib.IdealHost
import Idealize.ShloMosaic.Lib.KernelVsHost

noncomputable section

open scoped BigOperators

namespace Cert.KernelIdeal.Means

open Idealize.ShloMosaic Idealize.ShloMosaic.TcCoe Idealize.ShloMosaic.ValueIdx Idealize.SL.Sem
open Cert.KernelIdeal Cert.KernelIdeal.Gen Cert.KernelIdeal.Fold Cert.PoolSpec

/-! ## The operations at an index, over any array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the first two axes of a `[n0, 1, C]` index leaves its column: the indices that reduce to
    column `j` are the `(blk, 0, j)`, and the sum over them is the sum over the blocks. -/
theorem sum_filter_drop01 {n0 C : Nat} (h : (⟨3, ![n0, 1, C]⟩ : Shape).ReducesTo [0, 1] ⟨1, ![C]⟩)
    (x : (⟨3, ![n0, 1, C]⟩ : Shape).Idx → EReal) (j : Fin C) :
    ∑ i ∈ Finset.univ.filter (fun i => h.drop i = ix1 j), x i = ∑ blk : Fin n0, x (ix3 blk 0 j) := by
  have hdrop : ∀ i : (⟨3, ![n0, 1, C]⟩ : Shape).Idx, h.drop i = ix1 j ↔ i 2 = j := by
    intro i
    have hv : (h.drop i 0 : Nat) = i 2 := rfl
    constructor
    · intro e; rw [e] at hv; exact Fin.ext hv.symm
    · intro e; funext b
      have hb : b = 0 := Subsingleton.elim _ _
      subst hb
      exact Fin.ext (by rw [hv, e]; rfl)
  rw [Finset.sum_filter, sum_idx3]
  refine Finset.sum_congr rfl fun blk _ => ?_
  rw [Fin.sum_univ_one]
  have hterm : ∀ c : Fin C, (if h.drop (ix3 blk (0 : Fin 1) c) = ix1 j then x (ix3 blk 0 c) else 0)
      = if j = c then x (ix3 blk 0 c) else 0 := fun c => by
    refine if_congr ?_ rfl rfl
    rw [hdrop]
    exact eq_comm
  rw [Finset.sum_congr rfl fun c _ => hterm c, Finset.sum_ite_eq, if_pos (Finset.mem_univ _)]

/-- A mean of the kernel's program at a column: the host's quotient of the sum-reduction over the
    first two axes of a `[n0, 1, C]` array, from the zero word, by the splat of the word of 50000. -/
theorem mean_at {n0 C : Nat} (h : (⟨3, ![n0, 1, C]⟩ : Shape).ReducesTo [0, 1] ⟨1, ![C]⟩)
    (hu : 0 < (⟨0, ![]⟩ : Shape).numel) (hb : (⟨0, ![]⟩ : Shape).BroadcastsInDim ⟨1, ![C]⟩ ![])
    (x : (⟨3, ![n0, 1, C]⟩ : Shape).Idx → EReal) (j : Fin C) :
    Host.divf (F := Ideal) (φ := .f32)
        (Host.reduceAdd (F := Ideal) (φ := .f32) x (constant (F := Ideal) ⟨0, ![]⟩ .f32 0x00000000#32) h hu)
        (broadcastInDim ⟨1, ![C]⟩ ![] hb (constant (F := Ideal) ⟨0, ![]⟩ .f32 0x47435000#32)) (ix1 j)
      = Ideal.div (∑ blk : Fin n0, x (ix3 blk 0 j)) (Ideal.ofBits .f32 0x47435000#32) := by
  rw [hostDivf_apply, hostReduceAdd_apply, broadcastInDim_scalar_apply, constant_apply, constant_apply]
  unfold Ideal.hostReduceAdd
  rw [Ideal.ofBits_zero_f32, zero_add, sum_filter_drop01]

/-- The host's pad of a `[12]` array to `[128]` (nothing in front, 116 entries behind) inside the operand … -/
theorem pad_lo (h : (⟨1, ![12]⟩ : Shape).Pads (![0] : Fin 1 → Nat) ![116] ![0] ⟨1, ![128]⟩)
    (hu : 0 < (⟨0, ![]⟩ : Shape).numel) (x : (⟨1, ![12]⟩ : Shape).Idx → EReal) (v : (⟨0, ![]⟩ : Shape).Idx → EReal)
    (j : Fin 12) (j' : Fin 128) (hj : j'.val = j.val) :
    pad ⟨1, ![128]⟩ ![0] ![116] ![0] x v h hu (ix1 j') = x (ix1 j) :=
  pad_apply_of_inside _ _ _ x v h hu (ix1 j') (ix1 j) (fun a => by
    have ha : a = 0 := Subsingleton.elim _ _
    subst ha
    show j'.val = 0 + j.val * (0 + 1)
    omega)

/-- … and behind it. -/
theorem pad_hi (h : (⟨1, ![12]⟩ : Shape).Pads (![0] : Fin 1 → Nat) ![116] ![0] ⟨1, ![128]⟩)
    (hu : 0 < (⟨0, ![]⟩ : Shape).numel) (x : (⟨1, ![12]⟩ : Shape).Idx → EReal) (v : (⟨0, ![]⟩ : Shape).Idx → EReal)
    (j : Fin 128) (hj : 12 ≤ j.val) :
    pad ⟨1, ![128]⟩ ![0] ![116] ![0] x v h hu (ix1 j) = v (Shape.Idx.first hu) :=
  pad_apply_of_not_inside _ _ _ x v h hu (ix1 j) 0 (by
    show ¬(0 ≤ j.val ∧ (j.val - 0) % (0 + 1) = 0 ∧ (j.val - 0) / (0 + 1) < 12)
    omega)

/-- The padding value: the integer constant zero converted is the real zero. -/
theorem padValue (i : (⟨0, ![]⟩ : Shape).Idx) :
    (sitofp (F := Ideal) .f32 (constantI ⟨0, ![]⟩ 32 0#32) : FVec Ideal ⟨0, ![]⟩ .f32) i = 0 := by
  show ((((0#32 : BitVec 32).toInt : ℤ) : ℝ) : EReal) = 0
  simp

/-! ## The program's terms -/

variable (m : (ℓ : Loc nD τ sig) → Buf (Elt Ideal) ℓ) (ρ : Dev nD → PrngReg)

/-- The mean of a tail column: the ten blocks' partial sums added up, divided by 50000. -/
theorem tailMean_at (c : Dev nD) (j : Fin 128) :
    tailMean m ρ c (ix1 j)
      = Ideal.div (∑ blk : Fin 10, tail m ρ c (ix3 blk 0 j)) (Ideal.ofBits .f32 0x47435000#32) := by
  exact mean_at _ _ _ (tail m ρ c) j

/-- The mean of an aggregated column: the ten blocks' partial sums added up, divided by 50000. -/
theorem aggMean_at (c : Dev nD) (j : Fin 12) :
    aggMean m ρ c (ix1 j)
      = Ideal.div (∑ blk : Fin 10, partials m ρ c (ix3 blk 0 j)) (Ideal.ofBits .f32 0x47435000#32) := by
  exact mean_at _ _ _ (partials m ρ c) j

/-- The padded mean in one of the first twelve columns is the mean, -/
theorem aggMeanPadded_lo (c : Dev nD) (j : Fin 12) :
    aggMeanPadded m ρ c (ix1 (col12 j)) = aggMean m ρ c (ix1 j) := by
  exact pad_lo _ _ (aggMean m ρ c) _ j (col12 j) rfl

/-- and zero from column twelve on. -/
theorem aggMeanPadded_hi (c : Dev nD) (j : Fin 128) (h : 12 ≤ j.val) :
    aggMeanPadded m ρ c (ix1 j) = 0 := by
  exact (pad_hi _ _ (aggMean m ρ c) _ j h).trans (padValue _)

/-- The result at column `j` is the padded mean plus the tail mean. -/
theorem result_at (c : Dev nD) (j : Fin 128) :
    result m ρ c (ix1 j) = aggMeanPadded m ρ c (ix1 j) + tailMean m ρ c (ix1 j) := by
  rfl

end Cert.KernelIdeal.Means

end
-- ==== Proof.KernelValue.lean ====
/-
  The kernel's result is the mean activation `pooledAt`, where every source word is in range.

  In a column `j < 12` the tail partial sums are sums of zeros, so the tail mean is `0 / 50000 = 0`,
  and the padded mean is the mean over the ten blocks of 5000 nodes of the positive part of the
  aggregated feature plus the bias: the ten block sums are the sum over the 50000 nodes. In a column
  `j ≥ 12` the padded mean is zero and the tail mean is that mean of the node's own feature.
-/
import proofs.«412207_j70609262346359_2_alg».proof.Proof.KernelFold
import proofs.«412207_j70609262346359_2_alg».proof.Proof.KernelStages
import proofs.«412207_j70609262346359_2_alg».proof.Proof.KernelMeans

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.KernelIdeal.Fold Cert.PoolSpec

variable (m : (ℓ : Loc nD τ sig) → Buf (Elt Ideal) ℓ) (ρ : Dev nD → PrngReg)

/-- The range of the source words the precondition gives. -/
abbrev SrcInRange (c : Dev nD) : Prop :=
  ∀ e : Fin 800000, -50000 ≤ (edges m c (ix2 1 e)).toInt ∧ (edges m c (ix2 1 e)).toInt < 50000

/-- The twelve-column array the first region leaves holds the first twelve features of every node. -/
theorem small_feat (c : Dev nD) (n : Fin 50000) (j : Fin 12) :
    small m ρ c (ix2 n j) = feat (nodes m c) (weights m c) n (col12 j) :=
  LinearBlocks.small_apply (V0 m ρ) c n j

/-- So the aggregation holds the gathered features. -/
theorem agg_gathered (c : Dev nD) (hcol : SrcInRange m c) (n : Fin 50000) (j : Fin 12) :
    aggRows m ρ c (ix2 n j) = gathered (nodes m c) (weights m c) (edges m c) n (col12 j) := by
  rw [Stages.aggRows_at m ρ c hcol n j]
  unfold gathered
  refine Finset.sum_congr rfl fun e _ => ?_
  rw [small_feat]

/-- A block's partial sum of an aggregated column is the block's sum of activations. -/
theorem partials_at (c : Dev nD) (hcol : SrcInRange m c) (blk : Fin 10) (j : Fin 12) :
    partials m ρ c (ix3 blk 0 j)
      = ∑ r : Fin 5000, act (nodes m c) (weights m c) (edges m c) (biasArg m c) (blockRow blk r) (col12 j) := by
  have h := PoolBlocks.partial_apply (V4 m ρ) c blk j
  have ha : PoolBlocks.aggArr (V4 m ρ) c = aggRows m ρ c := W4_agg m ρ c
  have hb : PoolBlocks.biasArr (V4 m ρ) c = bias12 m c := W4_bias12 m ρ c
  rw [ha, hb] at h
  refine h.trans (Finset.sum_congr rfl fun r _ => ?_)
  rw [agg_gathered m ρ c hcol, Stages.bias12_at]
  unfold act
  rw [if_pos (show (col12 j).val < 12 from j.isLt)]

/-- A block's partial sum of a tail column is the block's sum of activations from column twelve on,
    and a sum of zeros before. -/
theorem tail_at (c : Dev nD) (blk : Fin 10) (j : Fin 128) :
    tail m ρ c (ix3 blk 0 j)
      = ∑ r : Fin 5000, if 12 ≤ j.val
          then act (nodes m c) (weights m c) (edges m c) (biasArg m c) (blockRow blk r) j else 0 := by
  refine (LinearBlocks.tail_apply (V0 m ρ) c blk j).trans (Finset.sum_congr rfl fun r _ => ?_)
  by_cases hj : 12 ≤ j.val
  · rw [if_pos hj, if_pos hj]
    unfold act
    rw [if_neg (by omega)]
  · rw [if_neg hj, if_neg hj]

/-- THE KERNEL'S RESULT at column `j` is the mean activation. -/
theorem kernel_pooled (c : Dev nD) (hcol : SrcInRange m c) (j : Fin 128) :
    result m ρ c (ix1 j) = pooledAt (nodes m c) (weights m c) (edges m c) (biasArg m c) j := by
  rw [Means.result_at, Means.tailMean_at]
  unfold pooledAt
  by_cases hj : j.val < 12
  · obtain ⟨j', rfl⟩ : ∃ j' : Fin 12, j = col12 j' := ⟨⟨j.val, hj⟩, rfl⟩
    have ht : ∑ blk : Fin 10, tail m ρ c (ix3 blk 0 (col12 j')) = 0 :=
      Finset.sum_eq_zero fun blk _ => by
        rw [tail_at]
        exact Finset.sum_eq_zero fun r _ => if_neg (by show ¬ 12 ≤ j'.val; have := j'.isLt; omega)
    rw [Means.aggMeanPadded_lo, Means.aggMean_at, ht, IndexRange.div_zero_nodes, add_zero,
      ← IndexRange.sum_blocks]
    exact congrArg (Ideal.div · _) (Finset.sum_congr rfl fun blk _ => partials_at m ρ c hcol blk j')
  · have hj' : 12 ≤ j.val := by omega
    rw [Means.aggMeanPadded_hi m ρ c j hj', zero_add, ← IndexRange.sum_blocks]
    refine congrArg (Ideal.div · _) (Finset.sum_congr rfl fun blk _ => ?_)
    rw [tail_at]
    exact Finset.sum_congr rfl fun r _ => if_pos hj'

end Cert.KernelIdeal.KernelValue

end
-- ==== Proof.ReferenceValue.lean ====
/-
  The reference's result is the mean activation `pooledAt`.

  Read one stage at a time: the quotient by 50000 of the sum over the nodes of the positive part of
  (the concatenation of the first twelve aggregated columns and the node's own other columns) plus
  the bias; the aggregation is the row scatter-add of the row gather of `X · W`.
-/
import proofs.«412207_j70609262346359_2_alg».proof.Proof.Gen.ReferenceIdeal.Read
import proofs.«412207_j70609262346359_2_alg».proof.Proof.RowOps

noncomputable section

open scoped BigOperators

namespace Cert.ReferenceIdeal.RefValue

open Idealize.ShloMosaic Idealize.ShloMosaic.ValueIdx Cert.ReferenceIdeal Cert.ReferenceIdeal.Gen Cert.PoolSpec

/-- The product `X · W` at `(n, j)`: the sum over the contracted index is `feat`. -/
theorem v0_at (x0 : (⟨S50000x128, .f32⟩ : BufTy).Contents (Elt Ideal)) (x2 : (⟨S128x128, .f32⟩ : BufTy).Contents (Elt Ideal))
    (n : Fin 50000) (j : Fin 128) :
    Read.val_main_v0 (F := Ideal) x0 x2 (ix2 n j) = feat x0 x2 n j := by
  rw [Read.val_main_v0_apply]
  unfold feat
  refine Finset.sum_congr rfl fun k _ => ?_
  have el : Read.lidx_main_v0 (ix2 n j) k = ix2 n k :=
    funext fun a => Fin.ext (by match a with | ⟨0, _⟩ => rfl | ⟨1, _⟩ => rfl)
  have er : Read.ridx_main_v0 (ix2 n j) k = ix2 k j :=
    funext fun a => Fin.ext (by match a with | ⟨0, _⟩ => rfl | ⟨1, _⟩ => rfl)
  rw [el, er]

/-- The source word of edge `e`, after the wrap of a negative index. -/
theorem v10_at (x1 : (⟨S2x800000, .i32⟩ : BufTy).Contents (Elt Ideal)) (e : Fin 800000) :
    Read.val_main_v10 (F := Ideal) x1 (ix2 e 0) = wrapIdx (x1 (ix2 1 e)) := by
  have ei : Read.idx_main_v3 (Read.idx_main_v4 (Read.idx_main_v10 (ix2 e 0))) = ix2 1 e :=
    funext fun a => Fin.ext (by
      match a with
      | ⟨0, _⟩ => rfl
      | ⟨1, _⟩ => exact Nat.mod_eq_of_lt e.isLt)
  rw [Read.val_main_v10_apply, Read.val_main_v9_apply, Read.val_main_v6_apply, Read.val_main_v8_apply,
    Read.val_main_v5_apply, Read.val_main_v7_apply, Read.val_main_c_apply, Read.val_main_c_0_apply,
    Read.val_main_v4_apply, Read.val_main_v3_apply, ei]
  rfl

/-- The destination word of edge `e`. -/
theorem v13_at (x1 : (⟨S2x800000, .i32⟩ : BufTy).Contents (Elt Ideal)) (e : Fin 800000) :
    Read.val_main_v13 (F := Ideal) x1 (ix2 e 0) = x1 (ix2 0 e) := by
  have ei : Read.idx_main_v1 (Read.idx_main_v2 (Read.idx_main_v13 (ix2 e 0))) = ix2 0 e :=
    funext fun a => Fin.ext (by
      match a with
      | ⟨0, _⟩ => rfl
      | ⟨1, _⟩ => exact Nat.mod_eq_of_lt e.isLt)
  rw [Read.val_main_v13_apply, Read.val_main_v2_apply, Read.val_main_v1_apply, ei]

/-- The gathered row of edge `e`: the features of the edge's source row. -/
theorem v11_at (x0 : (⟨S50000x128, .f32⟩ : BufTy).Contents (Elt Ideal)) (x1 : (⟨S2x800000, .i32⟩ : BufTy).Contents (Elt Ideal))
    (x2 : (⟨S128x128, .f32⟩ : BufTy).Contents (Elt Ideal)) (e : Fin 800000) (j : Fin 128) :
    Read.val_main_v11 (F := Ideal) x0 x1 x2 (ix2 e j) = feat x0 x2 (srcRow (x1 (ix2 1 e))) j := by
  unfold Read.val_main_v11
  rw [Cert.RowOps.gather128_apply, v10_at, v0_at]
  rfl

/-- The scatter-add into the zero array at `(n, j)`: the features gathered at node `n`. -/
theorem v14_at (x0 : (⟨S50000x128, .f32⟩ : BufTy).Contents (Elt Ideal)) (x1 : (⟨S2x800000, .i32⟩ : BufTy).Contents (Elt Ideal))
    (x2 : (⟨S128x128, .f32⟩ : BufTy).Contents (Elt Ideal)) (n : Fin 50000) (j : Fin 128) :
    Read.val_main_v14 (F := Ideal) x0 x1 x2 (ix2 n j) = gathered x0 x2 x1 n j := by
  unfold Read.val_main_v14
  rw [Cert.RowOps.scatter128_apply, Read.val_main_v12_apply, Read.val_main_cst_apply, Ideal.ofBits_def,
    Ideal.ofBits_zero_f32, zero_add]
  unfold gathered
  refine Finset.sum_congr rfl fun e _ => ?_
  rw [v13_at, v11_at]

/-- The concatenation at `(n, j)`: a gathered column below 12, the node's own column from 12 on. -/
theorem v17_at (x0 : (⟨S50000x128, .f32⟩ : BufTy).Contents (Elt Ideal)) (x1 : (⟨S2x800000, .i32⟩ : BufTy).Contents (Elt Ideal))
    (x2 : (⟨S128x128, .f32⟩ : BufTy).Contents (Elt Ideal)) (n : Fin 50000) (j : Fin 128) :
    Read.val_main_v17 (F := Ideal) x0 x1 x2 (ix2 n j)
      = if j.val < 12 then gathered x0 x2 x1 n j else feat x0 x2 n j := by
  unfold Read.val_main_v17
  by_cases hj : j.val < 12
  · rw [if_pos hj]
    refine (concatenate_pair_apply_left (t := S50000x128) (s₁ := S50000x12) (s₂ := S50000x116) (1 : Fin S50000x128.rank) _ _ _
      (ix2 n j) rfl (ix2 n (⟨j.val, hj⟩ : Fin 12))
      (fun b => by match b with | ⟨0, _⟩ => rfl | ⟨1, _⟩ => rfl)).trans ?_
    have ei : Read.idx_main_v15 (ix2 n (⟨j.val, hj⟩ : Fin 12)) = ix2 n j :=
      funext fun a => Fin.ext (by match a with | ⟨0, _⟩ => rfl | ⟨1, _⟩ => rfl)
    rw [Read.val_main_v15_apply, ei, v14_at]
  · rw [if_neg hj]
    have hj' : j.val - 12 < 116 := by have := j.isLt; omega
    refine (concatenate_pair_apply_right (t := S50000x128) (s₁ := S50000x12) (s₂ := S50000x116) (1 : Fin S50000x128.rank) _ _ _
      (ix2 n j) rfl rfl (ix2 n (⟨j.val - 12, hj'⟩ : Fin 116))
      (fun b hb => by
        match b with
        | ⟨0, _⟩ => rfl
        | ⟨1, _⟩ => exact absurd rfl hb)
      (by show (j.val - 12) + 12 = j.val; omega)).trans ?_
    have ei : Read.idx_main_v16 (ix2 n (⟨j.val - 12, hj'⟩ : Fin 116)) = ix2 n j :=
      funext fun a => Fin.ext (by
        match a with
        | ⟨0, _⟩ => rfl
        | ⟨1, _⟩ => show 12 + (j.val - 12) = j.val; omega)
    rw [Read.val_main_v16_apply, ei, v0_at]

/-- The bias added, the negative part cut off: the node's activation. -/
theorem v21_at (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (n : Fin 50000) (j : Fin 128) :
    Read.val_main_v21 (F := Ideal) x0 x1 x2 x3 (ix2 n j) = act x0 x2 x1 x3 n j := by
  have ei : Read.idx_main_v18 (Read.idx_main_v19 (ix2 n j)) = ix1 j :=
    funext fun a => Fin.ext (by match a with | ⟨0, _⟩ => rfl)
  rw [Read.val_main_v21_apply, Read.val_main_v20_apply, Read.val_main_v19_apply, Read.val_main_v18_apply, ei,
    Read.val_main_call0_v0_apply, Read.val_main_call0_cst_apply, v17_at, Ideal.maximumf_def, Ideal.addf_def,
    Ideal.ofBits_def, Ideal.ofBits_zero_f32]
  rfl

/-- The reference's last stage at column `j` is the mean activation. -/
theorem reference_pooled (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (j : Fin 128) :
    Cert.ReferenceIdeal.Read.val_main_v24 (F := Ideal) x0 x1 x2 x3 (ix1 j) = pooledAt x0 x2 x1 x3 j := by
  have ei : ∀ n : Fin 50000, Read.idx_main_v22 (ix1 j) n = ix2 n j := fun n =>
    funext fun a => Fin.ext (by match a with | ⟨0, _⟩ => rfl | ⟨1, _⟩ => rfl)
  have hs : (∑ k : Fin 50000, Read.val_main_v21 (F := Ideal) x0 x1 x2 x3 (Read.idx_main_v22 (ix1 j) k))
      = ∑ n : Fin 50000, act x0 x2 x1 x3 n j :=
    Finset.sum_congr rfl fun n _ => by rw [ei, v21_at]
  rw [Read.val_main_v24_apply, Read.val_main_v23_apply, Read.val_main_cst_2_apply, Read.val_main_v22_apply,
    Read.val_main_cst_1_apply, Ideal.hostDivf_def, Ideal.ofBits_def, Ideal.ofBits_def, Ideal.ofBits_zero_f32, zero_add, hs]
  unfold pooledAt
  rfl

end Cert.ReferenceIdeal.RefValue

end
-- ==== Proof.lean ====
/-
  A graph layer with mean pooling: `X · W` per node, the first twelve feature columns replaced by
  their sum over the incoming edges' sources, bias, positive part, mean over the 50000 nodes.

  The reference does this on whole arrays. The kernel's program computes `X · W` block by block in a
  first region that keeps only the twelve columns the edges need and, per block, the partial sums of
  the other columns' activations; gathers and scatter-adds the twelve columns on the host with a
  bounds-checked take; sums the activations of the aggregated columns block by block in a second
  region; and adds the two means. Over the extended reals both are `Cert.PoolSpec.pooled` of the
  argument arrays, provided every edge's source word is an index of the node array (in
  `[-50000, 50000)`, a negative one counting from the end): outside that range the reference clamps
  the index where the take fills the row with a not-a-number, which the extended reals read as `⊥`.
  The sums are re-associated (ten blocks of 5000 nodes against 50000 nodes) in a commutative monoid;
  no other law is used, so the finiteness of the float inputs is not.

  The three frames are the generated ones (the reference's is its generated run with the result
  dropped); `preserves` is `True`: the idealization rewrote nothing.
-/
import proofs.«412207_j70609262346359_2_alg».proof.Defs
import proofs.«412207_j70609262346359_2_alg».proof.Proof.Gen.Kernel
import proofs.«412207_j70609262346359_2_alg».proof.Proof.Gen.Kernel.Skeleton
import proofs.«412207_j70609262346359_2_alg».proof.Proof.Gen.Kernel.Launch
import proofs.«412207_j70609262346359_2_alg».proof.Proof.Gen.Kernel.Points
import proofs.«412207_j70609262346359_2_alg».proof.Proof.Gen.Kernel.Frame
import proofs.«412207_j70609262346359_2_alg».proof.Proof.Gen.KernelIdeal
import proofs.«412207_j70609262346359_2_alg».proof.Proof.Gen.KernelIdeal.Skeleton
import proofs.«412207_j70609262346359_2_alg».proof.Proof.Gen.KernelIdeal.Launch
import proofs.«412207_j70609262346359_2_alg».proof.Proof.Gen.KernelIdeal.Points
import proofs.«412207_j70609262346359_2_alg».proof.Proof.Gen.KernelIdeal.Frame
import proofs.«412207_j70609262346359_2_alg».proof.Proof.Gen.ReferenceIdeal
import proofs.«412207_j70609262346359_2_alg».proof.Proof.Gen.Pre_finite_inputs
import proofs.«412207_j70609262346359_2_alg».proof.Proof.Gen.ReferenceIdeal.Run
import proofs.«412207_j70609262346359_2_alg».proof.Proof.Gen.ReferenceIdeal.Read
import proofs.«412207_j70609262346359_2_alg».proof.Proof.KernelIdealRun
import proofs.«412207_j70609262346359_2_alg».proof.Proof.KernelValue
import proofs.«412207_j70609262346359_2_alg».proof.Proof.ReferenceValue
import Idealize.ShloMosaic.Adequacy
import Idealize.ShloMosaic.Init

noncomputable section

namespace Cert.Proof

open Idealize.ShloMosaic Idealize.ShloMosaic.TcCoe Idealize.ShloMosaic.ValueIdx Idealize.SL.Sem Cert.PoolSpec

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at `pooled` of the argument arrays: the kernel's by its
    run read through its host operations and regions, the reference's by its run read stage by stage;
    the source words' range comes from the precondition. -/
theorem algebraic : Cert.algebraic_KernelIdeal_ReferenceIdeal := by
  intro m ρ m' ρ' hpre hagree
  have hcol : ∀ c, Cert.KernelIdeal.KernelValue.SrcInRange m c := fun c e =>
    Cert.IndexRange.col_in_range _ _ _ _ (hpre c) e
  refine ⟨fun c => pooled (Cert.KernelIdeal.Fold.nodes m c) (Cert.KernelIdeal.Fold.weights m c)
    (Cert.KernelIdeal.Fold.edges m c) (Cert.KernelIdeal.Fold.biasArg m c), ?_, ?_⟩
  · refine (θ_run Cert.KernelIdeal.defs _ _).mono (fun r h c => ⟨(h c).1.trans ?_, (h c).2⟩)
      (Cert.KernelIdeal.Gen.run_result (F := Ideal) m ρ)
    rw [Cert.KernelIdeal.Fold.W8_result]
    funext i
    obtain ⟨j, rfl⟩ : ∃ j : Fin 128, i = ix1 j := ⟨i 0, eq_ix1 i⟩
    exact Cert.KernelIdeal.KernelValue.kernel_pooled m ρ c (hcol c) j
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2]
    funext i
    obtain ⟨j, rfl⟩ : ∃ j : Fin 128, i = ix1 j := ⟨i 0, eq_ix1 i⟩
    exact Cert.ReferenceIdeal.RefValue.reference_pooled _ _ _ _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
